-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x28x28 : Shape := ⟨4, ![64, 1024, 28, 28]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S64x1024x28x28 : S_.BroadcastsInDim S64x1024x28x28 (![] : Fin 0 → Fin S64x1024x28x28.rank)
  reducesTo_S64x1024x28x28_S_d0_1_2_3 : S64x1024x28x28.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S64x1024x28x28 .f32) (main_arg1 : FVec F S256x1024 .f32) (main_arg2 : FVec F S256 .f32) (main_arg3 : FVec F S1024x256 .f32) (main_arg4 : FVec F S1024 .f32) : IVec S_ 1 :=
  let main_v0 : FVec F S64x1024x28x28 .f32 := Host.absf main_arg0
  let main_cst : FVec F S_ .f32 := constant S_ .f32 0x7F800000#32
  let main_v1 : FVec F S64x1024x28x28 .f32 := broadcastInDim S64x1024x28x28 ![] bcast_S_S64x1024x28x28 main_cst
  let main_v2 : IVec S64x1024x28x28 1 := cmpf .olt main_v0 main_v1
  let main_c : IVec S_ 1 := constantI S_ 1 1#1
  let main_v3 : IVec S_ 1 := (fun x v => Host.reduce IntOp.andi x v reducesTo_S64x1024x28x28_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S64x1024x28x28 : Shape := ⟨4, ![64, 1024, 28, 28]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S3136x16384 : Shape := ⟨2, ![3136, 16384]⟩
abbrev S112x128 : Shape := ⟨2, ![112, 128]⟩
abbrev S224x16384 : Shape := ⟨2, ![224, 16384]⟩
abbrev S8x128 : Shape := ⟨2, ![8, 128]⟩
abbrev S224 : Shape := ⟨1, ![224]⟩
abbrev S224x1 : Shape := ⟨2, ![224, 1]⟩
abbrev S1 : Shape := ⟨1, ![1]⟩
abbrev S1x1 : Shape := ⟨2, ![1, 1]⟩
abbrev S65536x784 : Shape := ⟨2, ![65536, 784]⟩
abbrev S65536x1 : Shape := ⟨2, ![65536, 1]⟩
abbrev S2048x784 : Shape := ⟨2, ![2048, 784]⟩
abbrev S2048x1 : Shape := ⟨2, ![2048, 1]⟩
abbrev S112 : Shape := ⟨1, ![112]⟩
abbrev S112x1 : Shape := ⟨2, ![112, 1]⟩
abbrev S2048 : Shape := ⟨1, ![2048]⟩
abbrev S64x1024 : Shape := ⟨2, ![64, 1024]⟩
abbrev S64 : Shape := ⟨1, ![64]⟩
abbrev S64x1 : Shape := ⟨2, ![64, 1]⟩
abbrev S256x1 : Shape := ⟨2, ![256, 1]⟩
abbrev S64x256 : Shape := ⟨2, ![64, 256]⟩
abbrev S1x256 : Shape := ⟨2, ![1, 256]⟩
abbrev S1024x1 : Shape := ⟨2, ![1024, 1]⟩
abbrev S1x1024 : Shape := ⟨2, ![1, 1024]⟩

abbrev nBuf : Space → Nat
  | .hbm => 14
  | .vmem => 21
  | .smem => 0
  | _ => 0

abbrev bufTy : (tb : Table) → Fin (tcTables nBuf tb) → BufTy
  | .hbm, ⟨0, _⟩ => ⟨S64x1024x28x28, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S3136x16384, .f32⟩
  | .hbm, ⟨6, _⟩ => ⟨S112x128, .f32⟩
  | .hbm, ⟨7, _⟩ => ⟨S65536x784, .f32⟩
  | .hbm, ⟨8, _⟩ => ⟨S65536x1, .f32⟩
  | .hbm, ⟨9, _⟩ => ⟨S64x1024, .f32⟩
  | .hbm, ⟨10, _⟩ => ⟨S64x1024, .f32⟩
  | .hbm, ⟨11, _⟩ => ⟨S65536x1, .f32⟩
  | .hbm, ⟨12, _⟩ => ⟨S65536x784, .f32⟩
  | .hbm, ⟨13, _⟩ => ⟨S64x1024x28x28, .f32⟩
  | .local _ .vmem, ⟨0, _⟩ => ⟨S224x16384, .f32⟩
  | .local _ .vmem, ⟨1, _⟩ => ⟨S224x16384, .f32⟩
  | .local _ .vmem, ⟨2, _⟩ => ⟨S8x128, .f32⟩
  | .local _ .vmem, ⟨3, _⟩ => ⟨S8x128, .f32⟩
  | .local _ .vmem, ⟨4, _⟩ => ⟨S112x128, .f32⟩
  | .local _ .vmem, ⟨5, _⟩ => ⟨S2048x784, .f32⟩
  | .local _ .vmem, ⟨6, _⟩ => ⟨S2048x784, .f32⟩
  | .local _ .vmem, ⟨7, _⟩ => ⟨S2048x1, .f32⟩
  | .local _ .vmem, ⟨8, _⟩ => ⟨S2048x1, .f32⟩
  | .local _ .vmem, ⟨9, _⟩ => ⟨S64x1024, .f32⟩
  | .local _ .vmem, ⟨10, _⟩ => ⟨S256x1024, .f32⟩
  | .local _ .vmem, ⟨11, _⟩ => ⟨S256, .f32⟩
  | .local _ .vmem, ⟨12, _⟩ => ⟨S1024x256, .f32⟩
  | .local _ .vmem, ⟨13, _⟩ => ⟨S1024, .f32⟩
  | .local _ .vmem, ⟨14, _⟩ => ⟨S64x1024, .f32⟩
  | .local _ .vmem, ⟨15, _⟩ => ⟨S2048x784, .f32⟩
  | .local _ .vmem, ⟨16, _⟩ => ⟨S2048x784, .f32⟩
  | .local _ .vmem, ⟨17, _⟩ => ⟨S2048x1, .f32⟩
  | .local _ .vmem, ⟨18, _⟩ => ⟨S2048x1, .f32⟩
  | .local _ .vmem, ⟨19, _⟩ => ⟨S2048x784, .f32⟩
  | .local _ .vmem, ⟨20, _⟩ => ⟨S2048x784, .f32⟩
  | _, _ => ⟨S64x1024x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S112x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x784 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x784 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x784 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S64x1024x28x28_S3136x16384 : S64x1024x28x28.ShapeCasts S3136x16384
  inb_S224x16384_S224x16384_0_0 : ∀ a, (![0, 0] : Fin 2 → Nat) a + S224x16384.size a ≤ S224x16384.size a
  h_S224x16384 : 0 < S224x16384.numel
  shapeCasts_S224x16384_S224x16384 : S224x16384.ShapeCasts S224x16384
  reduces_S224x16384_S224 : S224x16384.Reduces [1] S224
  shapeCasts_S224_S224x1 : S224.ShapeCasts S224x1
  reduces_S224x1_S1 : S224x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S64x1024x28x28_S65536x784 : S64x1024x28x28.ShapeCasts S65536x784
  inb_S112x128_S112x128_0_0 : ∀ a, (![0, 0] : Fin 2 → Nat) a + S112x128.size a ≤ S112x128.size a
  h_S112x128 : 0 < S112x128.numel
  shapeCasts_S112x128_S112x128 : S112x128.ShapeCasts S112x128
  reduces_S112x128_S112 : S112x128.Reduces [1] S112
  shapeCasts_S112_S112x1 : S112.ShapeCasts S112x1
  reduces_S112x1_S1 : S112x1.Reduces [0] S1
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  broadcasts_S1x1_S2048x784 : S1x1.Broadcasts S2048x784
  reduces_S2048x784_S2048 : S2048x784.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S65536x1_S64x1024 : S65536x1.ShapeCasts S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  inb_S256_S256_0 : ∀ a, (![0] : Fin 1 → Nat) a + S256.size a ≤ S256.size a
  h_S256 : 0 < S256.numel
  inb_S1024_S1024_0 : ∀ a, (![0] : Fin 1 → Nat) a + S1024.size a ≤ S1024.size a
  h_S1024 : 0 < S1024.numel
  reduces_S64x1024_S64 : S64x1024.Reduces [1] S64
  shapeCasts_S64_S64x1 : S64.ShapeCasts S64x1
  reduces_S64x1_S1 : S64x1.Reduces [0] S1
  broadcasts_S1x1_S64x1024 : S1x1.Broadcasts S64x1024
  reduces_S256x1024_S256 : S256x1024.Reduces [1] S256
  shapeCasts_S256_S256x1 : S256.ShapeCasts S256x1
  reduces_S256x1_S1 : S256x1.Reduces [0] S1
  broadcasts_S1x1_S256x1024 : S1x1.Broadcasts S256x1024
  transposes_S256x1024_p1_0_S1024x256 : S256x1024.Transposes [1, 0] S1024x256
  shapeCasts_S256_S1x256 : S256.ShapeCasts S1x256
  broadcasts_S1x256_S64x256 : S1x256.Broadcasts S64x256
  reduces_S64x256_S64 : S64x256.Reduces [1] S64
  broadcasts_S1x1_S64x256 : S1x1.Broadcasts S64x256
  reduces_S1024x256_S1024 : S1024x256.Reduces [1] S1024
  shapeCasts_S1024_S1024x1 : S1024.ShapeCasts S1024x1
  reduces_S1024x1_S1 : S1024x1.Reduces [0] S1
  broadcasts_S1x1_S1024x256 : S1x1.Broadcasts S1024x256
  transposes_S1024x256_p1_0_S256x1024 : S1024x256.Transposes [1, 0] S256x1024
  shapeCasts_S1024_S1x1024 : S1024.ShapeCasts S1x1024
  broadcasts_S1x1024_S64x1024 : S1x1024.Broadcasts S64x1024
  shapeCasts_S64x1024_S65536x1 : S64x1024.ShapeCasts S65536x1
  shapeCasts_S2048x1_S2048x1 : S2048x1.ShapeCasts S2048x1
  broadcasts_S2048x1_S2048x784 : S2048x1.Broadcasts S2048x784
  shapeCasts_S65536x784_S64x1024x28x28 : S65536x784.ShapeCasts S64x1024x28x28
  dot_S64x1024_S1024x256_S64x256_1_0_0_1_n_n_wf : DotDims.WF S64x1024 S1024x256 S64x256 [1] [0] [0] [1] [] []
  dot_S64x256_S256x1024_S64x1024_1_0_0_1_n_n_wf : DotDims.WF S64x256 S256x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S224x16384.size a ≤ S3136x16384.size a
  hwx0_0 : ∀ i : grid0.Coords, EltTy.bits .f32 = 32 ∨ (Rect.block (s := S3136x16384) S224x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S112x128.size a
  hwx0_1 : ∀ i : grid0.Coords, EltTy.bits .f32 = 32 ∨ (Rect.block (s := S112x128) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S112x128.size a ≤ S112x128.size a
  hwx1_0 : ∀ i : grid1.Coords, EltTy.bits .f32 = 32 ∨ (Rect.block (s := S112x128) S112x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x784.size a ≤ S65536x784.size a
  hwx1_1 : ∀ i : grid1.Coords, EltTy.bits .f32 = 32 ∨ (Rect.block (s := S65536x784) S2048x784.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S65536x1.size a
  hwx1_2 : ∀ i : grid1.Coords, EltTy.bits .f32 = 32 ∨ (Rect.block (s := S65536x1) S2048x1.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S64x1024.size a
  hwx2_0 : ∀ i : grid2.Coords, EltTy.bits .f32 = 32 ∨ (Rect.block (s := S64x1024) S64x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .f32 = 32 ∨ (Rect.block (s := S256x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S1024x256.size a
  hwx2_3 : ∀ i : grid2.Coords, EltTy.bits .f32 = 32 ∨ (Rect.block (s := S1024x256) S1024x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1024.size a ≤ S64x1024.size a
  hwx2_5 : ∀ i : grid2.Coords, EltTy.bits .f32 = 32 ∨ (Rect.block (s := S64x1024) S64x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x784.size a ≤ S65536x784.size a
  hwx3_0 : ∀ i : grid3.Coords, EltTy.bits .f32 = 32 ∨ (Rect.block (s := S65536x784) S2048x784.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S65536x1.size a
  hwx3_1 : ∀ i : grid3.Coords, EltTy.bits .f32 = 32 ∨ (Rect.block (s := S65536x1) S2048x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x784.size a ≤ S65536x784.size a
  hwx3_2 : ∀ i : grid3.Coords, EltTy.bits .f32 = 32 ∨ (Rect.block (s := S65536x784) S2048x784.size (cc3_transform_2 i) (hinb3_2 i)).WholeWords (EltTy.packing .f32)

variable [Facts₀]

def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf

abbrev win0_0 : Pipeline.Window sig grid0 :=
  Pipeline.Window.ofSpec (Memref.whole main_v0) S224x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S112x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x784.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S64x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1024x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S64x1024.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v2) S2048x784.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2048x784.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S64x1024x28x28 : Shape := ⟨4, ![64, 1024, 28, 28]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩
abbrev S64x1024 : Shape := ⟨2, ![64, 1024]⟩
abbrev S64x256 : Shape := ⟨2, ![64, 256]⟩
abbrev S1x256 : Shape := ⟨2, ![1, 256]⟩
abbrev S1x1024 : Shape := ⟨2, ![1, 1024]⟩
abbrev S64x1024x1x1 : Shape := ⟨4, ![64, 1024, 1, 1]⟩

abbrev nBuf : Space → Nat
  | .hbm => 172
  | .vmem => 0
  | .smem => 0
  | _ => 0

abbrev hbmTy0_0 (i : Nat) : BufTy := match i % 128 with
  | 0 => ⟨S64x1024x28x28, .f32⟩
  | 1 => ⟨S256x1024, .f32⟩
  | 2 => ⟨S256, .f32⟩
  | 3 => ⟨S1024x256, .f32⟩
  | 4 => ⟨S1024, .f32⟩
  | 5 => ⟨S64x1024x28x28, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S64x1024x28x28, .f32⟩
  | 13 => ⟨S64x1024x28x28, .f32⟩
  | 14 => ⟨S64x1024x28x28, .f32⟩
  | 15 => ⟨S_, .f32⟩
  | 16 => ⟨S_, .f32⟩
  | 17 => ⟨S_, .f32⟩
  | 18 => ⟨S64x1024x28x28, .f32⟩
  | 19 => ⟨S64x1024x28x28, .f32⟩
  | 20 => ⟨S_, .f32⟩
  | 21 => ⟨S64x1024x28x28, .f32⟩
  | 22 => ⟨S64x1024x28x28, .f32⟩
  | 23 => ⟨S64x1024x28x28, .f32⟩
  | 24 => ⟨S64x1024x28x28, .f32⟩
  | 25 => ⟨S64x1024x28x28, .f32⟩
  | 26 => ⟨S64x1024x28x28, .f32⟩
  | 27 => ⟨S_, .f32⟩
  | 28 => ⟨S64x1024, .f32⟩
  | 29 => ⟨S_, .f32⟩
  | 30 => ⟨S64x1024, .f32⟩
  | 31 => ⟨S64x1024, .f32⟩
  | 32 => ⟨S64x1024, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S64x1024, .f32⟩
  | 40 => ⟨S64x1024, .f32⟩
  | 41 => ⟨S64x1024, .f32⟩
  | 42 => ⟨S_, .f32⟩
  | 43 => ⟨S_, .f32⟩
  | 44 => ⟨S_, .f32⟩
  | 45 => ⟨S64x1024, .f32⟩
  | 46 => ⟨S64x1024, .f32⟩
  | 47 => ⟨S_, .f32⟩
  | 48 => ⟨S64x1024, .f32⟩
  | 49 => ⟨S64x1024, .f32⟩
  | 50 => ⟨S64x1024, .f32⟩
  | 51 => ⟨S64x1024, .f32⟩
  | 52 => ⟨S64x1024, .f32⟩
  | 53 => ⟨S64x1024, .f32⟩
  | 54 => ⟨S64x1024, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S64x1024, .f32⟩
  | 62 => ⟨S64x1024, .f32⟩
  | 63 => ⟨S64x1024, .f32⟩
  | 64 => ⟨S_, .f32⟩
  | 65 => ⟨S_, .f32⟩
  | 66 => ⟨S_, .f32⟩
  | 67 => ⟨S64x1024, .f32⟩
  | 68 => ⟨S64x1024, .f32⟩
  | 69 => ⟨S_, .f32⟩
  | 70 => ⟨S64x1024, .f32⟩
  | 71 => ⟨S64x1024, .f32⟩
  | 72 => ⟨S64x1024, .f32⟩
  | 73 => ⟨S64x1024, .f32⟩
  | 74 => ⟨S64x1024, .f32⟩
  | 75 => ⟨S64x1024, .f32⟩
  | 76 => ⟨S256x1024, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S256x1024, .f32⟩
  | 84 => ⟨S256x1024, .f32⟩
  | 85 => ⟨S256x1024, .f32⟩
  | 86 => ⟨S_, .f32⟩
  | 87 => ⟨S_, .f32⟩
  | 88 => ⟨S_, .f32⟩
  | 89 => ⟨S256x1024, .f32⟩
  | 90 => ⟨S256x1024, .f32⟩
  | 91 => ⟨S_, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S256x1024, .f32⟩
  | 98 => ⟨S1024x256, .f32⟩
  | 99 => ⟨S64x256, .f32⟩
  | 100 => ⟨S1x256, .f32⟩
  | 101 => ⟨S64x256, .f32⟩
  | 102 => ⟨S64x256, .f32⟩
  | 103 => ⟨S_, .f32⟩
  | 104 => ⟨S64x256, .f32⟩
  | 105 => ⟨S64x256, .f32⟩
  | 106 => ⟨S64x256, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S64x256, .f32⟩
  | 114 => ⟨S64x256, .f32⟩
  | 115 => ⟨S64x256, .f32⟩
  | 116 => ⟨S_, .f32⟩
  | 117 => ⟨S_, .f32⟩
  | 118 => ⟨S_, .f32⟩
  | 119 => ⟨S64x256, .f32⟩
  | 120 => ⟨S64x256, .f32⟩
  | 121 => ⟨S_, .f32⟩
  | 122 => ⟨S64x256, .f32⟩
  | 123 => ⟨S64x256, .f32⟩
  | 124 => ⟨S64x256, .f32⟩
  | 125 => ⟨S64x256, .f32⟩
  | 126 => ⟨S64x256, .f32⟩
  | 127 => ⟨S64x256, .f32⟩
  | _ => ⟨S64x1024x28x28, .f32⟩

abbrev hbmTy0_1 (i : Nat) : BufTy := match i % 128 with
  | 0 => ⟨S1024x256, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1024x256, .f32⟩
  | 8 => ⟨S1024x256, .f32⟩
  | 9 => ⟨S1024x256, .f32⟩
  | 10 => ⟨S_, .f32⟩
  | 11 => ⟨S_, .f32⟩
  | 12 => ⟨S_, .f32⟩
  | 13 => ⟨S1024x256, .f32⟩
  | 14 => ⟨S1024x256, .f32⟩
  | 15 => ⟨S_, .f32⟩
  | 16 => ⟨S1024x256, .f32⟩
  | 17 => ⟨S1024x256, .f32⟩
  | 18 => ⟨S1024x256, .f32⟩
  | 19 => ⟨S1024x256, .f32⟩
  | 20 => ⟨S1024x256, .f32⟩
  | 21 => ⟨S1024x256, .f32⟩
  | 22 => ⟨S256x1024, .f32⟩
  | 23 => ⟨S64x1024, .f32⟩
  | 24 => ⟨S1x1024, .f32⟩
  | 25 => ⟨S64x1024, .f32⟩
  | 26 => ⟨S64x1024, .f32⟩
  | 27 => ⟨S_, .f32⟩
  | 28 => ⟨S64x1024, .f32⟩
  | 29 => ⟨S64x1024, .f32⟩
  | 30 => ⟨S_, .f32⟩
  | 31 => ⟨S64x1024, .f32⟩
  | 32 => ⟨S64x1024, .f32⟩
  | 33 => ⟨S_, .f32⟩
  | 34 => ⟨S_, .f32⟩
  | 35 => ⟨S_, .f32⟩
  | 36 => ⟨S64x1024, .f32⟩
  | 37 => ⟨S64x1024, .f32⟩
  | 38 => ⟨S_, .f32⟩
  | 39 => ⟨S64x1024, .f32⟩
  | 40 => ⟨S64x1024, .f32⟩
  | 41 => ⟨S64x1024x1x1, .f32⟩
  | 42 => ⟨S64x1024x28x28, .f32⟩
  | 43 => ⟨S64x1024x28x28, .f32⟩
  | _ => ⟨S64x1024x28x28, .f32⟩

abbrev hbmTy (i : Nat) : BufTy := match i / 128 with
  | 0 => hbmTy0_0 i
  | 1 => hbmTy0_1 i
  | _ => ⟨S64x1024x28x28, .f32⟩

abbrev bufTy : (tb : Table) → Fin (tcTables nBuf tb) → BufTy
  | .hbm, ⟨i, _⟩ => hbmTy i
  | _, _ => ⟨S64x1024x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_cst_7 : Ref sig .tc := ⟨.hbm, 35, rfl⟩
abbrev main_v17 : Ref sig .tc := ⟨.hbm, 36, rfl⟩
abbrev main_cst_8 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_9 : Ref sig .tc := ⟨.hbm, 42, rfl⟩
abbrev main_cst_10 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_11 : Ref sig .tc := ⟨.hbm, 55, rfl⟩
abbrev main_v28 : Ref sig .tc := ⟨.hbm, 56, rfl⟩
abbrev main_cst_12 : Ref sig .tc := ⟨.hbm, 57, rfl⟩
abbrev main_v29 : Ref sig .tc := ⟨.hbm, 58, rfl⟩
abbrev main_cst_13 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_14 : Ref sig .tc := ⟨.hbm, 64, rfl⟩
abbrev main_cst_15 : Ref sig .tc := ⟨.hbm, 65, rfl⟩
abbrev main_call5_v0 : Ref sig .tc := ⟨.hbm, 66, rfl⟩
abbrev main_call5_v1 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_16 : Ref sig .tc := ⟨.hbm, 77, rfl⟩
abbrev main_v40 : Ref sig .tc := ⟨.hbm, 78, rfl⟩
abbrev main_cst_17 : Ref sig .tc := ⟨.hbm, 79, rfl⟩
abbrev main_v41 : Ref sig .tc := ⟨.hbm, 80, rfl⟩
abbrev main_cst_18 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_19 : Ref sig .tc := ⟨.hbm, 86, rfl⟩
abbrev main_cst_20 : Ref sig .tc := ⟨.hbm, 87, rfl⟩
abbrev main_call7_v0 : Ref sig .tc := ⟨.hbm, 88, rfl⟩
abbrev main_call7_v1 : Ref sig .tc := ⟨.hbm, 89, rfl⟩
abbrev main_call7_v2 : Ref sig .tc := ⟨.hbm, 90, rfl⟩
abbrev main_call7_v3 : Ref sig .tc := ⟨.hbm, 91, rfl⟩
abbrev main_call7_v4 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call8_cst : Ref sig .tc := ⟨.hbm, 103, rfl⟩
abbrev main_call8_v0 : Ref sig .tc := ⟨.hbm, 104, rfl⟩
abbrev main_v56 : Ref sig .tc := ⟨.hbm, 105, rfl⟩
abbrev main_v57 : Ref sig .tc := ⟨.hbm, 106, rfl⟩
abbrev main_cst_21 : Ref sig .tc := ⟨.hbm, 107, rfl⟩
abbrev main_v58 : Ref sig .tc := ⟨.hbm, 108, rfl⟩
abbrev main_cst_22 : Ref sig .tc := ⟨.hbm, 109, rfl⟩
abbrev main_v59 : Ref sig .tc := ⟨.hbm, 110, rfl⟩
abbrev main_cst_23 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_24 : Ref sig .tc := ⟨.hbm, 116, rfl⟩
abbrev main_cst_25 : Ref sig .tc := ⟨.hbm, 117, rfl⟩
abbrev main_call10_v0 : Ref sig .tc := ⟨.hbm, 118, rfl⟩
abbrev main_call10_v1 : Ref sig .tc := ⟨.hbm, 119, rfl⟩
abbrev main_call10_v2 : Ref sig .tc := ⟨.hbm, 120, rfl⟩
abbrev main_call10_v3 : Ref sig .tc := ⟨.hbm, 121, rfl⟩
abbrev main_call10_v4 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_26 : Ref sig .tc := ⟨.hbm, 129, rfl⟩
abbrev main_v70 : Ref sig .tc := ⟨.hbm, 130, rfl⟩
abbrev main_cst_27 : Ref sig .tc := ⟨.hbm, 131, rfl⟩
abbrev main_v71 : Ref sig .tc := ⟨.hbm, 132, rfl⟩
abbrev main_cst_28 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_cst_29 : Ref sig .tc := ⟨.hbm, 138, rfl⟩
abbrev main_cst_30 : Ref sig .tc := ⟨.hbm, 139, rfl⟩
abbrev main_call12_v0 : Ref sig .tc := ⟨.hbm, 140, rfl⟩
abbrev main_call12_v1 : Ref sig .tc := ⟨.hbm, 141, rfl⟩
abbrev main_call12_v2 : Ref sig .tc := ⟨.hbm, 142, rfl⟩
abbrev main_call12_v3 : Ref sig .tc := ⟨.hbm, 143, rfl⟩
abbrev main_call12_v4 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_cst_31 : Ref sig .tc := ⟨.hbm, 155, rfl⟩
abbrev main_v86 : Ref sig .tc := ⟨.hbm, 156, rfl⟩
abbrev main_v87 : Ref sig .tc := ⟨.hbm, 157, rfl⟩
abbrev main_cst_32 : Ref sig .tc := ⟨.hbm, 158, rfl⟩
abbrev main_v88 : Ref sig .tc := ⟨.hbm, 159, rfl⟩
abbrev main_v89 : Ref sig .tc := ⟨.hbm, 160, rfl⟩
abbrev main_cst_33 : Ref sig .tc := ⟨.hbm, 161, rfl⟩
abbrev main_cst_34 : Ref sig .tc := ⟨.hbm, 162, rfl⟩
abbrev main_call13_v0 : Ref sig .tc := ⟨.hbm, 163, rfl⟩
abbrev main_call13_v1 : Ref sig .tc := ⟨.hbm, 164, rfl⟩
abbrev main_call13_v2 : Ref sig .tc := ⟨.hbm, 165, rfl⟩
abbrev main_call13_v3 : Ref sig .tc := ⟨.hbm, 166, rfl⟩
abbrev main_call13_v4 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩

abbrev nD : Nat := 1
abbrev τ : Topo := Topo.v7x

variable {F : FTy → Type} [FloatOps F]

class Facts₀ : Prop where
  reducesTo_S64x1024x28x28_S_d0_1_2_3 : S64x1024x28x28.ReducesTo [0, 1, 2, 3] S_
  h_S_ : 0 < S_.numel
  bcast_S_S64x1024x28x28 : S_.BroadcastsInDim S64x1024x28x28 (![] : Fin 0 → Fin S64x1024x28x28.rank)
  reducesTo_S64x1024x28x28_S64x1024_d2_3 : S64x1024x28x28.ReducesTo [2, 3] S64x1024
  bcast_S_S64x1024 : S_.BroadcastsInDim S64x1024 (![] : Fin 0 → Fin S64x1024.rank)
  reducesTo_S64x1024_S_d0_1 : S64x1024.ReducesTo [0, 1] S_
  reducesTo_S256x1024_S_d0_1 : S256x1024.ReducesTo [0, 1] S_
  bcast_S_S256x1024 : S_.BroadcastsInDim S256x1024 (![] : Fin 0 → Fin S256x1024.rank)
  transposes_S256x1024_S1024x256_1_0 : S256x1024.Transposes [1, 0] S1024x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  reducesTo_S64x256_S_d0_1 : S64x256.ReducesTo [0, 1] S_
  reducesTo_S1024x256_S_d0_1 : S1024x256.ReducesTo [0, 1] S_
  bcast_S_S1024x256 : S_.BroadcastsInDim S1024x256 (![] : Fin 0 → Fin S1024x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S64x1024x1x1_0_1 : S64x1024.BroadcastsInDim S64x1024x1x1 (![0, 1] : Fin 2 → Fin S64x1024x1x1.rank)
  bcast_S64x1024x1x1_S64x1024x28x28_0_1_2_3 : S64x1024x1x1.BroadcastsInDim S64x1024x28x28 (![0, 1, 2, 3] : Fin 4 → Fin S64x1024x28x28.rank)
  dot_S64x1024_S1024x256_S64x256_1_0_0_1_n_n_wf : DotDims.WF S64x1024 S1024x256 S64x256 [1] [0] [0] [1] [] []
  dot_S64x256_S256x1024_S64x1024_1_0_0_1_n_n_wf : DotDims.WF S64x256 S256x1024 S64x1024 [1] [0] [0] [1] [] []

variable [Facts₀]

def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf

class Facts : Prop extends Facts₀ where

variable [Facts]
-- ==== Proof.Spec.lean ====
/-
  The mathematics both programs compute, on the extended reals, with no program in sight.

  A tensor `t` is fake-quantized per tensor: with `M = max |t|` over all its entries and the scale
  `s = max (M / 127) 1e-8`, an entry becomes `q = clip (round (t / s)) (-127) 127 * s` (round to nearest, ties to
  even). The squeeze-and-excite gate is: quantize `x`; average each (batch, channel) plane over its 28 x 28 positions;
  quantize that mean twice; a quantized linear layer to 256 features with a relu; a quantized linear layer back to 1024
  channels; `clip (o / 6 + 1/2) 0 1`; and the result is `x` times its plane's gate.
  Float literals stay as the binary words both programs print; none is evaluated here.
-/
import Idealize.ShloMosaic.PureOps.Ideal
import Idealize.ShloMosaic.PureOps.Ideal.Laws
import Idealize.ShloMosaic.Lib.ValueIdx

noncomputable section

namespace Cert.SE

open Idealize.ShloMosaic Idealize.ShloMosaic.ValueIdx

/-! ## One entry -/

/-- The absolute value as both programs print it: the larger of `t` and `-t`. -/
def ab (t : EReal) : EReal := max t (-t)

/-- The scale of a tensor whose largest magnitude is `M`: `max (M / 127) 1e-8`. -/
def qs (M : EReal) : EReal :=
  max (Ideal.div M (Ideal.ofBits .f32 0x42FE0000#32)) (Ideal.ofBits .f32 0x322BCC77#32)

/-- One entry quantized at the scale `s`: `min 127 (max (-127) (round (t / s))) * s`. -/
def fq (s t : EReal) : EReal :=
  min (Ideal.ofBits .f32 0x42FE0000#32)
    (max (Ideal.ofBits .f32 0xC2FE0000#32) (Ideal.liftRound Ideal.roundHalfEven (Ideal.div t s))) * s

/-! ## One tensor -/

/-- The largest magnitude of a tensor: the supremum of `|f i|` over every index (`-inf` for no index at all,
    which is what a maximum taken from `-inf` gives). -/
def amax {ι : Type} [Fintype ι] (f : ι → EReal) : EReal := Finset.univ.sup fun i => ab (f i)

/-- The whole tensor quantized at its own scale. -/
def fqT {ι : Type} [Fintype ι] (f : ι → EReal) : ι → EReal := fun i => fq (qs (amax f)) (f i)

/-! ## The shapes -/

abbrev SX : Shape := ⟨4, ![64, 1024, 28, 28]⟩
abbrev SW1 : Shape := ⟨2, ![256, 1024]⟩
abbrev SB1 : Shape := ⟨1, ![256]⟩
abbrev SW2 : Shape := ⟨2, ![1024, 256]⟩
abbrev SB2 : Shape := ⟨1, ![1024]⟩
abbrev SG : Shape := ⟨2, ![64, 1024]⟩
abbrev SH : Shape := ⟨2, ![64, 256]⟩

/-! ## The gate -/

/-- The first quantized linear layer and its relu, from the pooled mean `se` (quantized twice on the way in):
    `h[b, r] = max (sum_k q(q(se))[b, k] * q(W1)[r, k] + b1[r]) 0`. -/
def fc1 (se : SG.Idx → EReal) (W1 : SW1.Idx → EReal) (b1 : SB1.Idx → EReal) : SH.Idx → EReal := fun j =>
  max ((∑ k : Fin 1024, fqT (fqT se) (ix2 (j 0) k) * fqT W1 (ix2 (j 1) k)) + b1 (ix1 (j 1)))
    (Ideal.ofBits .f32 0x00000000#32)

/-- The second quantized linear layer and the hard sigmoid, from the hidden activations `h`:
    `g[b, c] = min 1 (max 0 ((sum_r q(h)[b, r] * q(W2)[c, r] + b2[c]) / 6 + 1/2))`. -/
def fc2 (h : SH.Idx → EReal) (W2 : SW2.Idx → EReal) (b2 : SB2.Idx → EReal) : SG.Idx → EReal := fun j =>
  min (Ideal.ofBits .f32 0x3F800000#32)
    (max (Ideal.ofBits .f32 0x00000000#32)
      (Ideal.div ((∑ k : Fin 256, fqT h (ix2 (j 0) k) * fqT W2 (ix2 (j 1) k)) + b2 (ix1 (j 1)))
          (Ideal.ofBits .f32 0x40C00000#32)
        + Ideal.ofBits .f32 0x3F000000#32))

/-- The gate of every (batch, channel) plane from the planes' pooled means. -/
def gate (se : SG.Idx → EReal) (W1 : SW1.Idx → EReal) (b1 : SB1.Idx → EReal) (W2 : SW2.Idx → EReal)
    (b2 : SB2.Idx → EReal) : SG.Idx → EReal :=
  fc2 (fc1 se W1 b1) W2 b2

/-! ## The pooled mean and the result -/

/-- The mean over the 28 x 28 positions of plane `(b, c)` of `x` quantized at the scale `s`. -/
def mean4 (s : EReal) (x : SX.Idx → EReal) : SG.Idx → EReal := fun j =>
  Ideal.div (∑ hw : Fin 28 × Fin 28, fq s (x (ix4 (j 0) (j 1) hw.1 hw.2))) (Ideal.ofBits .f32 0x44440000#32)

/-- What both programs end holding: `x` times its plane's gate. -/
def OUT (x : SX.Idx → EReal) (W1 : SW1.Idx → EReal) (b1 : SB1.Idx → EReal) (W2 : SW2.Idx → EReal)
    (b2 : SB2.Idx → EReal) : SX.Idx → EReal := fun i =>
  x i * gate (mean4 (qs (amax x)) x) W1 b1 W2 b2 (ix2 (i 0) (i 1))

end Cert.SE

end
-- ==== Proof.KVal.lean ====
/-
  What each of the kernel program's four launches leaves in its output array, as a function of the arrays it reads,
  and the whole program's result as their composition through the reshapes between the launches.
  Launch 0 takes, per block of 224 rows of the [3136, 16384] view of `x`, the largest magnitude, and fills an
  [8, 128] tile of the partials with it. Launch 1 takes the largest partial for the scale, quantizes each row of the
  [65536, 784] view and averages it. Launch 2 is the gate. Launch 3 multiplies each row by its gate.
-/
import proofs.«422627_j82746839925439_3_alg».proof.KernelIdeal
import proofs.«422627_j82746839925439_3_alg».proof.Proof.Gen.KernelIdeal
import proofs.«422627_j82746839925439_3_alg».proof.Proof.Spec

noncomputable section

namespace Cert.KernelIdeal.Val

open Cert.KernelIdeal Cert.KernelIdeal.Gen Cert.SE Idealize.ShloMosaic Idealize.ShloMosaic.ValueIdx

/-- The largest magnitude in block `b` (rows `224 b … 224 b + 223`) of the lane view: row by row, then over the rows. -/
def bmax (xl : S3136x16384.Idx → EReal) (b : Fin 14) : EReal :=
  (Finset.univ : Finset (Fin 224)).sup fun r =>
    (Finset.univ : Finset (Fin 16384)).sup fun k =>
      ab (xl (ix2 (⟨b.val * 224 + r.val, by have := b.isLt; have := r.isLt; omega⟩ : Fin 3136) k))

/-- Launch 0's output: tile `b` (rows `8 b … 8 b + 7`) holds block `b`'s largest magnitude everywhere. -/
def P0 (xl : S3136x16384.Idx → EReal) : S112x128.Idx → EReal := fun j =>
  bmax xl ⟨(j 0).val / 8, by have := idx2_lt0 j; omega⟩

/-- The largest entry of the partials: row by row, then over the rows. -/
def psup (P : S112x128.Idx → EReal) : EReal :=
  (Finset.univ : Finset (Fin 112)).sup fun a => (Finset.univ : Finset (Fin 128)).sup fun b => P (ix2 a b)

/-- Launch 1's output: row `r` of the [65536, 784] view quantized at the scale of the largest partial, averaged. -/
def P1 (P : S112x128.Idx → EReal) (X2 : S65536x784.Idx → EReal) : S65536x1.Idx → EReal := fun j =>
  Ideal.div (∑ k : Fin 784, fq (qs (psup P)) (X2 (ix2 (⟨(j 0).val, idx2_lt0 j⟩ : Fin 65536) k)))
    (Ideal.ofBits .f32 0x44440000#32)

/-- Launch 3's output: each entry of row `r` times the row's gate. -/
def P3 (X2 : S65536x784.Idx → EReal) (g : S65536x1.Idx → EReal) : S65536x784.Idx → EReal := fun i =>
  X2 i * g (ix2 (⟨(i 0).val, idx2_lt0 i⟩ : Fin 65536) (0 : Fin 1))

/-- The kernel program's result as a function of its five arguments. -/
def kout (x : S64x1024x28x28.Idx → EReal) (W1 : S256x1024.Idx → EReal) (b1 : S256.Idx → EReal)
    (W2 : S1024x256.Idx → EReal) (b2 : S1024.Idx → EReal) : S64x1024x28x28.Idx → EReal :=
  shapeCast S64x1024x28x28
    (P3 (shapeCast S65536x784 x shapeCasts_S64x1024x28x28_S65536x784)
      (shapeCast S65536x1
        (gate
          (shapeCast S64x1024
            (P1 (P0 (shapeCast S3136x16384 x shapeCasts_S64x1024x28x28_S3136x16384))
              (shapeCast S65536x784 x shapeCasts_S64x1024x28x28_S65536x784))
            shapeCasts_S65536x1_S64x1024)
          W1 b1 W2 b2)
        shapeCasts_S64x1024_S65536x1))
    shapeCasts_S65536x784_S64x1024x28x28

end Cert.KernelIdeal.Val

end
-- ==== Proof.SpecLemmas.lean ====
/-
  The algebra of the specification on the extended reals: which values are real numbers, the law
  `t + (q - t) = q` for a real `t`, and the supremum of magnitudes taken in stages.
-/
import proofs.«422627_j82746839925439_3_alg».proof.Proof.Spec

noncomputable section

namespace Cert.SE

open Idealize.ShloMosaic Idealize.ShloMosaic.ValueIdx

/-- An extended real that is a real number. -/
def IsReal (t : EReal) : Prop := t ≠ ⊤ ∧ t ≠ ⊥

/-! ## The literals: the real number each binary word denotes -/

/-- The word `0xFF800000` is `-inf`. -/
private theorem w_neg_inf : Ideal.ofBits .f32 0xFF800000#32 = ⊥ := by
  simp [Ideal.ofBits, Ideal.ieee]

/-- The word `0x42FE0000` is `127`. -/
private theorem w_127 : Ideal.ofBits .f32 0x42FE0000#32 = ((127 : ℝ) : EReal) := by
  simp [Ideal.ofBits, Ideal.ieee]
  rw [← EReal.coe_mul]; norm_num

/-- The word `0xC2FE0000` is `-127`. -/
private theorem w_m127 : Ideal.ofBits .f32 0xC2FE0000#32 = ((-127 : ℝ) : EReal) := by
  simp [Ideal.ofBits, Ideal.ieee]
  rw [← EReal.coe_mul]; norm_num

/-- The word `0x322BCC77` (the float nearest `1e-8`) is some real number. -/
private theorem w_eps : ∃ r : ℝ, Ideal.ofBits .f32 0x322BCC77#32 = (r : EReal) := by
  simp [Ideal.ofBits, Ideal.ieee]
  exact ⟨_, (EReal.coe_mul _ _).symm⟩

/-- The word `0x44440000` is `784`. -/
private theorem w_784 : Ideal.ofBits .f32 0x44440000#32 = ((784 : ℝ) : EReal) := by
  simp [Ideal.ofBits, Ideal.ieee]
  rw [← EReal.coe_mul]; norm_num

/-! ## Real numbers among the extended reals -/

private theorem coe_real (r : ℝ) : IsReal (r : EReal) := ⟨EReal.coe_ne_top r, EReal.coe_ne_bot r⟩

private theorem max_real {a b : EReal} (ha : IsReal a) (hb : IsReal b) : IsReal (max a b) := by
  rcases max_choice a b with h | h <;> rw [h] <;> assumption

private theorem neg_real {a : EReal} (ha : IsReal a) : IsReal (-a) := by
  obtain ⟨h1, h2⟩ := ha
  lift a to ℝ using ⟨h1, h2⟩
  rw [← EReal.coe_neg]; exact coe_real _

/-- A value clipped between two real bounds is a real number, whatever it was. -/
private theorem clip_real (a b : ℝ) (X : EReal) : IsReal (min (a : EReal) (max (b : EReal) X)) := by
  constructor
  · exact ne_of_lt (lt_of_le_of_lt (min_le_left _ _) (EReal.coe_lt_top a))
  · exact ne_of_gt (lt_min (EReal.bot_lt_coe a) (lt_max_of_lt_left (EReal.bot_lt_coe b)))

/-- The reference's `t + (q - t)` is `q` as soon as `t` is a real number, whatever `q` is. -/
theorem add_sub_cancel_real (t q : EReal) (ht : IsReal t) : t + (q - t) = q := by
  obtain ⟨h1, h2⟩ := ht
  lift t to ℝ using ⟨h1, h2⟩
  induction q using EReal.rec with
  | bot => simp
  | coe q => norm_cast; ring
  | top => simp

/-- A maximum folded from `-inf` (the word `0xFF800000`) over a finite set is the set's supremum. -/
theorem fold_max_eq_sup {ι : Type} (s : Finset ι) (g : ι → EReal) :
    s.fold max (Ideal.ofBits .f32 0xFF800000#32) g = s.sup g := by
  rw [w_neg_inf]
  rfl

/-- The largest magnitude of a rank-2 tensor, row by row and then over the rows. -/
theorem amax_ix2 {n0 n1 : Nat} (f : (⟨2, ![n0, n1]⟩ : Shape).Idx → EReal) :
    amax f = (Finset.univ : Finset (Fin n0)).sup fun a => (Finset.univ : Finset (Fin n1)).sup fun b => ab (f (ix2 a b)) := by
  unfold amax
  apply le_antisymm
  · -- every entry sits in its row, and its row among the rows
    apply Finset.sup_le; intro i _
    have hi : ab (f i) = ab (f (ix2 (i 0) (i 1))) := congrArg (fun j => ab (f j)) (eq_ix2 i)
    rw [hi]
    exact le_trans
      (Finset.le_sup (f := fun b => ab (f (ix2 (i 0) b))) (Finset.mem_univ (i 1)))
      (Finset.le_sup (f := fun a => (Finset.univ : Finset (Fin n1)).sup fun b => ab (f (ix2 a b))) (Finset.mem_univ (i 0)))
  · -- every entry of every row is an entry of the tensor
    apply Finset.sup_le; intro a _; apply Finset.sup_le; intro b _
    exact Finset.le_sup (f := fun i => ab (f i)) (Finset.mem_univ (ix2 a b))

/-- The largest magnitude is unchanged by re-indexing along a surjection. -/
theorem amax_comp_surj {ι κ : Type} [Fintype ι] [Fintype κ] (f : κ → EReal) (e : ι → κ) (he : Function.Surjective e) :
    amax (fun i => f (e i)) = amax f := by
  unfold amax
  apply le_antisymm
  · apply Finset.sup_le; intro i _
    exact Finset.le_sup (f := fun k => ab (f k)) (Finset.mem_univ (e i))
  · apply Finset.sup_le; intro k _
    obtain ⟨i, rfl⟩ := he k
    exact Finset.le_sup (f := fun i => ab (f (e i))) (Finset.mem_univ i)

theorem ab_real {t : EReal} (ht : IsReal t) : IsReal (ab t) :=
  max_real ht (neg_real ht)

/-- The largest magnitude of real entries is not `+inf`. -/
theorem amax_ne_top {ι : Type} [Fintype ι] (f : ι → EReal) (hf : ∀ i, IsReal (f i)) : amax f ≠ ⊤ := by
  unfold amax
  apply ne_of_lt
  rw [Finset.sup_lt_iff bot_lt_top]
  intro i _
  exact lt_top_iff_ne_top.mpr (ab_real (hf i)).1

theorem mul_real {a b : EReal} (ha : IsReal a) (hb : IsReal b) : IsReal (a * b) := by
  obtain ⟨a1, a2⟩ := ha
  obtain ⟨b1, b2⟩ := hb
  lift a to ℝ using ⟨a1, a2⟩
  lift b to ℝ using ⟨b1, b2⟩
  rw [← EReal.coe_mul]; exact coe_real _

theorem add_real {a b : EReal} (ha : IsReal a) (hb : IsReal b) : IsReal (a + b) := by
  obtain ⟨a1, a2⟩ := ha
  obtain ⟨b1, b2⟩ := hb
  lift a to ℝ using ⟨a1, a2⟩
  lift b to ℝ using ⟨b1, b2⟩
  rw [← EReal.coe_add]; exact coe_real _

/-- The scale is a real number unless the largest magnitude is `+inf` (it is at least `1e-8`). -/
theorem qs_real {M : EReal} (hM : M ≠ ⊤) : IsReal (qs M) := by
  unfold qs
  obtain ⟨c, hc⟩ := w_eps
  rw [w_127, hc, Ideal.div_coe (by norm_num : (127 : ℝ) ≠ 0)]
  induction M using EReal.rec with
  | bot =>
    -- `-inf` times the positive `1/127` is `-inf`, and the maximum is the real literal
    rw [EReal.bot_mul_coe_of_pos (by norm_num : (0 : ℝ) < 1 / 127), max_eq_right bot_le]
    exact coe_real c
  | coe m => exact max_real (mul_real (coe_real m) (coe_real _)) (coe_real c)
  | top => exact absurd rfl hM

/-- A quantized entry is a real number at a real scale, whatever the entry was: the clip lies in `[-127, 127]`. -/
theorem fq_real {s : EReal} (hs : IsReal s) (t : EReal) : IsReal (fq s t) := by
  unfold fq
  rw [w_127, w_m127]
  exact mul_real (clip_real _ _ _) hs

theorem fqT_real {ι : Type} [Fintype ι] (f : ι → EReal) (hf : ∀ i, IsReal (f i)) (i : ι) : IsReal (fqT f i) :=
  fq_real (qs_real (amax_ne_top f hf)) (f i)

theorem sum_real {ι : Type} (s : Finset ι) (g : ι → EReal) (hg : ∀ i ∈ s, IsReal (g i)) : IsReal (∑ i ∈ s, g i) :=
  Finset.sum_induction g IsReal (fun a b ha hb => add_real ha hb) (by simpa using coe_real 0) hg

/-- The pooled mean is a real number at a real scale. -/
theorem mean4_real {s : EReal} (hs : IsReal s) (x : SX.Idx → EReal) (j : SG.Idx) : IsReal (mean4 s x j) := by
  unfold mean4
  rw [w_784, Ideal.div_coe (by norm_num : (784 : ℝ) ≠ 0)]
  exact mul_real (sum_real _ _ fun hw _ => fq_real hs _) (coe_real _)

/-- The hidden activations are real numbers when the pooled means, the weights and the bias are. -/
theorem fc1_real (se : SG.Idx → EReal) (W1 : SW1.Idx → EReal) (b1 : SB1.Idx → EReal) (hse : ∀ i, IsReal (se i))
    (hW : ∀ i, IsReal (W1 i)) (hb : ∀ i, IsReal (b1 i)) (j : SH.Idx) : IsReal (fc1 se W1 b1 j) := by
  unfold fc1
  rw [Ideal.ofBits_zero_f32]
  refine max_real (add_real (sum_real _ _ fun k _ => mul_real ?_ ?_) (hb _)) (by simpa using coe_real 0)
  · exact fqT_real (fqT se) (fun i => fqT_real se hse i) _
  · exact fqT_real W1 hW _

end Cert.SE

end
-- ==== Proof.R0.lean ====
/-
  Launch 0's output array after its 14 grid points: the partial maxima of the lane view it was entered with.
-/
import proofs.«422627_j82746839925439_3_alg».proof.Proof.Gen.KernelIdeal.Frame
import proofs.«422627_j82746839925439_3_alg».proof.Proof.KVal
import proofs.«422627_j82746839925439_3_alg».proof.Proof.SpecLemmas
import Idealize.ShloMosaic.Lib.Pipeline.Value
import Idealize.ShloMosaic.Lib.ValueIdx
import Idealize.ShloMosaic.Lib.ValueLayout
import Idealize.ShloMosaic.PureOps.Ideal.Laws

noncomputable section

set_option maxRecDepth 16384

namespace Cert.KernelIdeal.Val

open Cert.KernelIdeal Cert.KernelIdeal.Gen Cert.SE Idealize.ShloMosaic Idealize.ShloMosaic.TcCoe Idealize.ShloMosaic.ValueIdx Idealize.SL.Sem
open Idealize.ShloMosaic.Pipeline (Dat Cfg Window)

-- the TensorCore's buffer contents when the launch is entered: any contents
variable (V : (c : Dev nD) → (b : Ref sig .tc) → Buf (Elt Ideal) ((c : Thread nD τ).loc b))

/-- The zero offsets, however spelt. -/
private theorem hz : (![0, 0] : Fin 2 → Nat) = fun _ => 0 := funext fun a => by fin_cases a <;> rfl

/-- The index over row `r` with lane `k` inserted is `(r, k)`. -/
private theorem lift_row (r : Fin 224) (k : Fin 16384) : reduces_S224x16384_S224.lift (ix1 r) k = ix2 r k :=
  funext fun c => Fin.ext (by match c with | ⟨0, _⟩ => rfl | ⟨1, _⟩ => rfl)

/-- One row of the block: its largest magnitude along the lanes. -/
private theorem row_max (x0 : Vec Ideal S224x16384 .f32) (r : Fin 224) :
    multiReduction (F := Ideal) .maximumf [1] S224 (absf (shapeCast S224x16384 x0 shapeCasts_S224x16384_S224x16384)) 0xFF800000#32 reduces_S224x16384_S224 (.inl rfl) rfl (ix1 r)
      = (Finset.univ : Finset (Fin 16384)).sup fun k => ab (x0 (ix2 r k)) := by
  refine (Ideal.multiReduction_maximumf_single _ _ reduces_S224x16384_S224 (.inl rfl) rfl (ix1 r)).trans ?_
  rw [shapeCast_self]
  refine (fold_max_eq_sup _ _).trans ?_
  refine Finset.sup_congr rfl fun k _ => ?_
  show FloatOps.absf (F := Ideal) (φ := .f32) (x0 (reduces_S224x16384_S224.lift (ix1 r) k)) = ab (x0 (ix2 r k))
  rw [lift_row r k]
  rfl

/-- The index over the one result entry with row `r` inserted is `(r, 0)`. -/
private theorem lift_col (r : Fin 224) : reduces_S224x1_S1.lift (ix1 (0 : Fin 1)) r = ix2 r (0 : Fin 1) :=
  funext fun c => Fin.ext (by match c with | ⟨0, _⟩ => rfl | ⟨1, _⟩ => rfl)

/-- A column vector read at `(r, 0)` is the vector at `r`. -/
private theorem col_apply {α : Type} (v : S224.Idx → α) (r : Fin 224) :
    shapeCast S224x1 v shapeCasts_S224_S224x1 (ix2 r (0 : Fin 1)) = v (ix1 r) :=
  shapeCast_apply v _ _ _ (by rw [Shape.rowMajor_val_one, Shape.rowMajor_val_two]; show r.val = r.val * 1 + 0; omega)

/-- The largest entry of a vector of 224, taken down its column form. -/
private theorem col_max (v : FVec Ideal S224 .f32) :
    multiReduction (F := Ideal) .maximumf [0] S1 (shapeCast S224x1 v shapeCasts_S224_S224x1) 0xFF800000#32 reduces_S224x1_S1 (.inl rfl) rfl (ix1 (0 : Fin 1))
      = (Finset.univ : Finset (Fin 224)).sup fun r => v (ix1 r) := by
  refine (Ideal.multiReduction_maximumf_single _ _ reduces_S224x1_S1 (.inl rfl) rfl (ix1 (0 : Fin 1))).trans ?_
  refine (fold_max_eq_sup _ _).trans ?_
  refine Finset.sup_congr rfl fun r _ => ?_
  show shapeCast S224x1 v shapeCasts_S224_S224x1 (reduces_S224x1_S1.lift (ix1 (0 : Fin 1)) r) = v (ix1 r)
  rw [lift_col r]
  exact col_apply v r

/-- The body's value at every entry of the tile: the block's largest magnitude, row by row then over the rows. -/
private theorem tile_value (x0 : Vec Ideal S224x16384 .f32) (p : Fin 8) (q : Fin 128) :
    k0_pay1 (F := Ideal) x0 (ix2 p q)
      = (Finset.univ : Finset (Fin 224)).sup fun r => (Finset.univ : Finset (Fin 16384)).sup fun k => ab (x0 (ix2 r k)) := by
  unfold k0_pay1
  refine (broadcastTo_apply _ broadcasts_S1x1_S8x128 (ix2 p q) (ix2 (0 : Fin 1) (0 : Fin 1)) (fun a => by
    match a with | ⟨0, _⟩ => rfl | ⟨1, _⟩ => rfl)).trans ?_
  rw [shapeCast_self]
  refine (shapeCast_a_1a_apply _ shapeCasts_S1_S1x1 (0 : Fin 1) (0 : Fin 1)).trans ?_
  refine (col_max _).trans ?_
  exact Finset.sup_congr rfl fun r _ => row_max x0 r

/-- The body's value at any entry of the tile. -/
private theorem tile_value_at (x0 : Vec Ideal S224x16384 .f32) (y : S8x128.Idx) :
    k0_pay1 (F := Ideal) x0 y
      = (Finset.univ : Finset (Fin 224)).sup fun r => (Finset.univ : Finset (Fin 16384)).sup fun k => ab (x0 (ix2 r k)) := by
  obtain ⟨p, q, rfl⟩ : ∃ (p : Fin 8) (q : Fin 128), y = ix2 p q := ⟨y 0, y 1, eq_ix2 y⟩
  exact tile_value x0 p q

/-- Both windows' block indices at grid point `t`: row block `t`, the one column block. -/
private theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The grid has 14 points. -/
private theorem point_lt (t : Fin cfg0.N) : t.val < 14 := t.isLt

/-- The input window's block at point `t` is rows `224 t … 224 t + 223` of the lane view. -/
private theorem in_block (c : Dev nD) (t : Fin cfg0.N) (r : Fin 224) (k : Fin 16384) :
    (iblk0 V c 0 t : Vec Ideal S224x16384 .f32) (ix2 r k)
      = (V c main_v0 : S3136x16384.Idx → EReal) (ix2 (⟨t.val * 224 + r.val, by have := point_lt t; have := r.isLt; omega⟩ : Fin 3136) k) := by
  obtain ⟨e0, e1, -, -⟩ := block_index t
  unfold iblk0
  rw [View.read_apply]
  show V c main_v0 _ = V c main_v0 _
  congr 1
  funext a
  apply Fin.ext
  match a with
  | ⟨0, _⟩ => show win0_0.index t (0 : Fin 2) * 224 + 1 * r.val = t.val * 224 + r.val; rw [e0]; omega
  | ⟨1, _⟩ => show win0_0.index t (1 : Fin 2) * 16384 + 1 * k.val = k.val; rw [e1]; omega

/-- The largest magnitude of the input block at point `t` is block `t`'s of the lane view. -/
private theorem block_max (c : Dev nD) (t : Fin cfg0.N) :
    ((Finset.univ : Finset (Fin 224)).sup fun r => (Finset.univ : Finset (Fin 16384)).sup fun k => ab ((iblk0 V c 0 t : Vec Ideal S224x16384 .f32) (ix2 r k)))
      = bmax (V c main_v0) ⟨t.val, point_lt t⟩ := by
  unfold bmax
  exact Finset.sup_congr rfl fun r _ => Finset.sup_congr rfl fun k _ => by rw [in_block]

/-- `P0` at an entry of tile `b`. -/
private theorem P0_at (xl : S3136x16384.Idx → EReal) (i : S112x128.Idx) (b : Fin 14) (hb : (i 0).val / 8 = b.val) : P0 xl i = bmax xl b := by
  unfold P0
  congr 1
  exact Fin.ext hb

/-- What point `t` writes back is tile `t` of `P0` of the lane view. -/
private theorem flushed_tile (c : Dev nD) (t : Fin cfg0.N) :
    (dat0 (F := Ideal) V c).flushed 1 t = ((cfg0.win 1).blk t).view.read (Elt Ideal) (P0 (V c main_v0)) := by
  show (cfg0.win 1).cut (grid0.coords t) ((dat0 V c).after 1 t) = _
  rw [after0_1]
  unfold out0_1
  rw [View.canon_unit_zero hz]
  simp only [View.ld_unit_zero (S := S224x16384) hz]
  obtain ⟨-, -, e2, -⟩ := block_index t
  funext j
  show k0_pay1 (F := Ideal) (iblk0 V c 0 t) ((cfg0.win 1).xinj (grid0.coords t) j) = P0 (V c main_v0) (((cfg0.win 1).blk t).view.emb j)
  refine (tile_value_at _ _).trans ((block_max V c t).trans (P0_at _ _ ⟨t.val, point_lt t⟩ ?_).symm)
  show (win0_1.index t (0 : Fin 2) * 8 + 1 * (j 0).val) / 8 = t.val
  have hj : (j 0).val < 8 := (j 0).isLt
  rw [e2]; omega

/-- An index of the partials is in point `t`'s tile iff each coordinate is in the tile's range on its axis. -/
private theorem mem_tile (t : Fin cfg0.N) (i : S112x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- Every index of the partials is in the tile of the point its row block names. -/
private theorem tiles_cover (i : S112x128.Idx) : ∃ t : Fin cfg0.N, (cfg0.win 1).flush t = true ∧ i ∈ ((cfg0.win 1).blk t).view.set := by
  have hi0 : (i 0).val < 112 := (i 0).isLt
  have hi1 : (i 1).val < 128 := (i 1).isLt
  have hlt : (i 0).val / 8 < 14 := by omega
  refine ⟨⟨(i 0).val / 8, hlt⟩, flush0_1 _, ?_⟩
  rw [mem_tile]
  obtain ⟨-, -, e2, e3⟩ := block_index ⟨(i 0).val / 8, hlt⟩
  intro a
  match a with
  | ⟨0, _⟩ => show win0_1.index ⟨(i 0).val / 8, hlt⟩ (0 : Fin 2) * 8 ≤ (i 0).val ∧ (i 0).val < win0_1.index ⟨(i 0).val / 8, hlt⟩ (0 : Fin 2) * 8 + 8; rw [e2]; show (i 0).val / 8 * 8 ≤ (i 0).val ∧ (i 0).val < (i 0).val / 8 * 8 + 8; omega
  | ⟨1, _⟩ => show win0_1.index ⟨(i 0).val / 8, hlt⟩ (1 : Fin 2) * 128 ≤ (i 1).val ∧ (i 1).val < win0_1.index ⟨(i 0).val / 8, hlt⟩ (1 : Fin 2) * 128 + 128; rw [e3]; omega

/-- After launch 0 the partials array holds `P0` of the lane view the launch found. -/
theorem arr0 (c : Dev nD) : (dat0 (F := Ideal) V c).arrAt 1 cfg0.N = P0 (V c main_v0) :=
  (dat0 V c).arrAt_eq_of_cover 1 (P0 (V c main_v0)) (fun t _ => flushed_tile V c t) tiles_cover

end Cert.KernelIdeal.Val

end
-- ==== Proof.R1.lean ====
/-
  Launch 1's output array after its 32 grid points: every row of the [65536, 784] view quantized at the scale the partials give, and averaged.
-/
import proofs.«422627_j82746839925439_3_alg».proof.Proof.Gen.KernelIdeal.Frame
import proofs.«422627_j82746839925439_3_alg».proof.Proof.KVal
import proofs.«422627_j82746839925439_3_alg».proof.Proof.SpecLemmas
import Idealize.ShloMosaic.Lib.Pipeline.Value
import Idealize.ShloMosaic.Lib.ValueIdx
import Idealize.ShloMosaic.PureOps.Ideal.Laws

noncomputable section

set_option maxRecDepth 16384

namespace Cert.KernelIdeal.Val

open Cert.KernelIdeal Cert.KernelIdeal.Gen Cert.SE Idealize.ShloMosaic Idealize.ShloMosaic.TcCoe Idealize.ShloMosaic.ValueIdx Idealize.SL.Sem
open Idealize.ShloMosaic.Pipeline (Dat Cfg Window)

-- the TensorCore's buffer contents when the launch is entered: any contents
variable (V : (c : Dev nD) → (b : Ref sig .tc) → Buf (Elt Ideal) ((c : Thread nD τ).loc b))

namespace QuantMean

/-! ## Layout operations at an index -/

/-- A vector `[a]` cast to the column `[a, 1]` reads, at `(p, q)`, the operand at `p`. -/
theorem shapeCast_col_apply {α : Type} {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (k : Fin b) :
    broadcastTo ⟨2, ![a, b]⟩ v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-! ## Reductions along one axis of a matrix -/

/-- The largest entry of row `p`: a `maximumf` reduction of a matrix along axis 1, from `-inf`. -/
theorem max_axis1_apply {m n : ℕ} (x : FVec Ideal ⟨2, ![m, n]⟩ .f32)
    (h : (⟨2, ![m, n]⟩ : Shape).Reduces [1] ⟨1, ![m]⟩) (hφ : FKind.Formats .f32)
    (hacc : (0xFF800000#32 : BitVec 32) = FKind.maximumf.neutral .f32 hφ) (p : Fin m) :
    multiReduction .maximumf [1] ⟨1, ![m]⟩ x 0xFF800000#32 h hφ hacc (ix1 p)
      = (Finset.univ : Finset (Fin n)).sup fun k => x (ix2 p k) := by
  refine (Ideal.multiReduction_maximumf_single x _ h hφ hacc (ix1 p)).trans ?_
  refine (fold_max_eq_sup _ _).trans ?_
  exact Finset.sup_congr rfl fun k _ => congrArg x (funext fun d => Fin.ext (by
    match d with
    | ⟨0, _⟩ => rfl
    | ⟨1, _⟩ => rfl))

/-- The largest entry of column `q`: a `maximumf` reduction of a matrix along axis 0, from `-inf`. -/
theorem max_axis0_apply {m n : ℕ} (x : FVec Ideal ⟨2, ![m, n]⟩ .f32)
    (h : (⟨2, ![m, n]⟩ : Shape).Reduces [0] ⟨1, ![n]⟩) (hφ : FKind.Formats .f32)
    (hacc : (0xFF800000#32 : BitVec 32) = FKind.maximumf.neutral .f32 hφ) (q : Fin n) :
    multiReduction .maximumf [0] ⟨1, ![n]⟩ x 0xFF800000#32 h hφ hacc (ix1 q)
      = (Finset.univ : Finset (Fin m)).sup fun k => x (ix2 k q) := by
  refine (Ideal.multiReduction_maximumf_single x _ h hφ hacc (ix1 q)).trans ?_
  refine (fold_max_eq_sup _ _).trans ?_
  exact Finset.sup_congr rfl fun k _ => congrArg x (funext fun d => Fin.ext (by
    match d with
    | ⟨0, _⟩ => rfl
    | ⟨1, _⟩ => rfl))

/-- The sum of row `p`: an `add` reduction of a matrix along axis 1, from zero. -/
theorem sum_axis1_apply {m n : ℕ} (x : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (p : Fin m) :
    multiReduction .add [1] ⟨1, ![m]⟩ x 0x00000000#32 h hφ hacc (ix1 p) = ∑ k : Fin n, x (ix2 p k) := by
  refine (Ideal.multiReduction_add_single x _ h hφ hacc (ix1 p)).trans ?_
  exact Finset.sum_congr rfl fun k _ => congrArg x (funext fun d => Fin.ext (by
    match d with
    | ⟨0, _⟩ => rfl
    | ⟨1, _⟩ => rfl))

/-! ## The body's arithmetic -/

/-- The scale: the largest partial (row by row, then over the rows) over 127, at least 1e-8. -/
theorem scale_apply (x0 : FVec Ideal S112x128 .f32) (h0 : S112x128.ShapeCasts S112x128) (h1 : S112x128.Reduces [1] S112)
    (h2 : S112.ShapeCasts S112x1) (h3 : S112x1.Reduces [0] S1) (h4 : S1.ShapeCasts S1x1) (hφ : FKind.Formats .f32)
    (hacc : (0xFF800000#32 : BitVec 32) = FKind.maximumf.neutral .f32 hφ) :
    (maximumf
        (divf
          (shapeCast S1x1
            (multiReduction .maximumf [0] S1
              (shapeCast S112x1 (multiReduction .maximumf [1] S112 (shapeCast S112x128 x0 h0) 0xFF800000#32 h1 hφ hacc) h2)
              0xFF800000#32 h3 hφ hacc) h4)
          (broadcast S1x1 (FloatOps.ofBits .f32 0x42FE0000#32)))
        (broadcast S1x1 (FloatOps.ofBits .f32 0x322BCC77#32)) : FVec Ideal S1x1 .f32) (ix2 (0 : Fin 1) (0 : Fin 1))
      = qs (psup x0) := by
  rw [shapeCast_self]
  show max (Ideal.div (shapeCast S1x1 _ h4 (ix2 (0 : Fin 1) (0 : Fin 1))) (Ideal.ofBits .f32 0x42FE0000#32)) (Ideal.ofBits .f32 0x322BCC77#32) = qs (psup x0)
  unfold qs
  refine congrArg (fun z => max (Ideal.div z (Ideal.ofBits .f32 0x42FE0000#32)) (Ideal.ofBits .f32 0x322BCC77#32)) ?_
  refine (shapeCast_col_apply _ h4 (0 : Fin 1) (0 : Fin 1)).trans ?_
  refine (max_axis0_apply _ h3 hφ hacc (0 : Fin 1)).trans ?_
  unfold psup
  refine Finset.sup_congr rfl fun a _ => ?_
  refine (shapeCast_col_apply _ h2 a (0 : Fin 1)).trans ?_
  exact max_axis1_apply x0 h1 hφ hacc a

/-- Rounding to the nearest integer, ties to even, entry by entry. -/
theorem roundeven_apply {s : Shape} {φ : FTy} (a : FVec Ideal s φ) (i : s.Idx) :
    roundeven a i = Ideal.liftRound Ideal.roundHalfEven (a i) := rfl

/-- The body's result at row `p`: the row quantized at the scale of the partials, summed, over 784. -/
theorem pay_apply (x0 : Vec Ideal S112x128 .f32) (x1 : Vec Ideal S2048x784 .f32) (p : Fin 2048) (q : Fin 1) :
    k1_pay1 x0 x1 (ix2 p q)
      = Ideal.div (∑ k : Fin 784, fq (qs (psup x0)) (x1 (ix2 p k))) (Ideal.ofBits .f32 0x44440000#32) := by
  unfold k1_pay1
  simp only [divf_apply, broadcast_apply]
  refine congrArg (fun z => Ideal.div z (Ideal.ofBits .f32 0x44440000#32)) ?_
  refine (shapeCast_col_apply _ _ p q).trans ?_
  refine (sum_axis1_apply _ _ _ _ p).trans ?_
  refine Finset.sum_congr rfl fun k _ => ?_
  rw [shapeCast_self x1]
  simp only [mulf_apply, minimumf_apply, maximumf_apply, roundeven_apply, divf_apply, broadcast_apply]
  rw [broadcastTo_11_ab_apply]
  exact congrArg (fun s => fq s (x1 (ix2 p k))) (scale_apply x0 _ _ _ _ _ _ _)

/-! ## The launch's windows -/

theorem zero_offsets : (![0, 0] : Fin 2 → Nat) = fun _ => 0 := funext fun a => by fin_cases a <;> rfl

/-- The printed index maps over the 32 points: the partials always at block (0, 0); the rows and the pooled column at
    block (t, 0). -/
theorem index_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The block of partials at every point is the whole array. -/
theorem partials_block (c : Dev nD) (t : Fin cfg1.N) (y : S112x128.Idx) :
    (iblk1 V c 0 t : Vec Ideal S112x128 .f32) y = (V c main_v1 : S112x128.Idx → EReal) y := by
  obtain ⟨e0, e1, -, -, -, -⟩ := index_facts t
  unfold iblk1
  rw [View.read_apply]
  show (V c main_v1 : S112x128.Idx → EReal) _ = _
  congr 1
  funext a
  apply Fin.ext
  match a with
  | ⟨0, _⟩ => show win1_0.index t (0 : Fin 2) * 112 + 1 * (y 0).val = (y 0).val; rw [e0]; omega
  | ⟨1, _⟩ => show win1_0.index t (1 : Fin 2) * 128 + 1 * (y 1).val = (y 1).val; rw [e1]; omega

/-- The block of rows at point `t` is rows `2048 t … 2048 t + 2047` of the row view. -/
theorem rows_block (c : Dev nD) (t : Fin cfg1.N) (p : Fin 2048) (k : Fin 784) (r : Fin 65536)
    (hr : r.val = t.val * 2048 + p.val) :
    (iblk1 V c 1 t : Vec Ideal S2048x784 .f32) (ix2 p k) = (V c main_v2 : S65536x784.Idx → EReal) (ix2 r k) := by
  obtain ⟨-, -, e0, e1, -, -⟩ := index_facts t
  unfold iblk1
  rw [View.read_apply]
  show (V c main_v2 : S65536x784.Idx → EReal) _ = _
  congr 1
  funext a
  apply Fin.ext
  match a with
  | ⟨0, _⟩ => show win1_1.index t (0 : Fin 2) * 2048 + 1 * p.val = r.val; rw [e0, hr]; omega
  | ⟨1, _⟩ => show win1_1.index t (1 : Fin 2) * 784 + 1 * k.val = k.val; rw [e1]; omega

/-- What point `t` writes back is block `t` of `P1` of the partials and the row view. -/
theorem flushed_eq (c : Dev nD) (t : Fin cfg1.N) :
    (dat1 (F := Ideal) V c).flushed 2 t
      = ((cfg1.win 2).blk t).view.read (Elt Ideal) (P1 (V c main_v1) (V c main_v2)) := by
  show (cfg1.win 2).cut (grid1.coords t) ((dat1 (F := Ideal) V c).after 2 t) = _
  rw [after1_2]
  unfold out1_2
  rw [View.canon_unit_zero zero_offsets]
  simp only [View.ld_unit_zero (S := S112x128) zero_offsets, View.ld_unit_zero (S := S2048x784) zero_offsets]
  obtain ⟨-, -, -, -, e0, e1⟩ := index_facts t
  refine funext fun (j : S2048x1.Idx) => ?_
  obtain ⟨p, q, rfl⟩ : ∃ (p : Fin 2048) (q : Fin 1), j = ix2 p q := ⟨j 0, j 1, eq_ix2 j⟩
  show k1_pay1 (iblk1 V c 0 t) (iblk1 V c 1 t) (ix2 p q)
    = P1 (V c main_v1) (V c main_v2) (((cfg1.win 2).blk t).view.emb (ix2 p q))
  rw [pay_apply]
  have hP : psup (iblk1 V c 0 t : Vec Ideal S112x128 .f32) = psup (V c main_v1) :=
    congrArg psup (funext fun y => partials_block V c t y)
  rw [hP]
  unfold P1
  refine congrArg (fun z => Ideal.div z (Ideal.ofBits .f32 0x44440000#32)) ?_
  refine Finset.sum_congr rfl fun k _ => ?_
  refine congrArg (fq (qs (psup (V c main_v1)))) ?_
  exact rows_block V c t p k _ (by
    show win1_2.index t (0 : Fin 2) * 2048 + 1 * p.val = t.val * 2048 + p.val
    rw [e0]; omega)

/-- An index of the pooled column is in point `t`'s block iff each coordinate is in the block's range on its axis. -/
theorem mem_block (t : Fin cfg1.N) (i : S65536x1.Idx) :
    i ∈ ((cfg1.win 2).blk t).view.set ↔ ∀ a : Fin 2, win1_2.index t a * S2048x1.size a ≤ (i a).val
      ∧ (i a).val < win1_2.index t a * S2048x1.size a + S2048x1.size a := by
  show i ∈ ((View.whole main_v3).slice (win1_2.rect t)).set ↔ _
  rw [View.set_slice_whole, Rect.mem_set_unit]
  exact Iff.rfl

/-- Row `r` of the pooled column is in the block of point `r / 2048`. -/
theorem covered (i : S65536x1.Idx) :
    ∃ t : Fin cfg1.N, (cfg1.win 2).flush t = true ∧ i ∈ ((cfg1.win 2).blk t).view.set := by
  have hi0 : (i 0).val < 65536 := (i 0).isLt
  have hi1 : (i 1).val < 1 := (i 1).isLt
  have hN : cfg1.N = 32 := N_1
  obtain ⟨t, ht⟩ : ∃ t : Fin cfg1.N, t.val = (i 0).val / 2048 := ⟨⟨(i 0).val / 2048, by rw [hN]; omega⟩, rfl⟩
  obtain ⟨-, -, -, -, e0, e1⟩ := index_facts t
  refine ⟨t, flush1_2 t, ?_⟩
  rw [mem_block]
  intro a
  match a with
  | ⟨0, _⟩ =>
    show win1_2.index t (0 : Fin 2) * 2048 ≤ (i 0).val ∧ (i 0).val < win1_2.index t (0 : Fin 2) * 2048 + 2048
    rw [e0, ht]; omega
  | ⟨1, _⟩ =>
    show win1_2.index t (1 : Fin 2) * 1 ≤ (i 1).val ∧ (i 1).val < win1_2.index t (1 : Fin 2) * 1 + 1
    rw [e1]; omega

end QuantMean

/-- After launch 1 the pooled array holds `P1` of the partials and the row view the launch found. -/
theorem arr1 (c : Dev nD) : (dat1 (F := Ideal) V c).arrAt 2 cfg1.N = P1 (V c main_v1) (V c main_v2) :=
  (dat1 (F := Ideal) V c).arrAt_eq_of_cover 2 (P1 (V c main_v1) (V c main_v2))
    (fun t _ => QuantMean.flushed_eq V c t) QuantMean.covered

end Cert.KernelIdeal.Val

end
-- ==== Proof.R2Quant.lean ====
/-
  The per-tensor fake quantization as the kernel prints it, read at an index.

  For a rank-2 tensor `t` the kernel takes the magnitudes, the largest along each row, casts that vector to a column,
  takes the largest of the column, casts it to a [1, 1] tensor, divides by 127 and keeps at least 1e-8: the scale
  `qs (amax t)`. It then broadcasts the scale over the tensor, divides, rounds to nearest even, clips to [-127, 127] and
  multiplies by the scale again: `fq` of the scale at every entry.
-/
import proofs.«422627_j82746839925439_3_alg».proof.Proof.SpecLemmas
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.SE Idealize.ShloMosaic Idealize.ShloMosaic.ValueIdx

/-- The printed scale of a rank-2 tensor: the magnitudes' largest along each row, that vector as a column, the column's
    largest, as a [1, 1] tensor, over 127, at least 1e-8. -/
def pscale {n0 n1 : Nat} (t : FVec Ideal ⟨2, ![n0, n1]⟩ .f32)
    (hr1 : (⟨2, ![n0, n1]⟩ : Shape).Reduces [1] ⟨1, ![n0]⟩) (hc1 : (⟨1, ![n0]⟩ : Shape).ShapeCasts ⟨2, ![n0, 1]⟩)
    (hr0 : (⟨2, ![n0, 1]⟩ : Shape).Reduces [0] ⟨1, ![1]⟩) (hc0 : (⟨1, ![1]⟩ : Shape).ShapeCasts ⟨2, ![1, 1]⟩) :
    FVec Ideal ⟨2, ![1, 1]⟩ .f32 :=
  maximumf
    (divf
      (shapeCast ⟨2, ![1, 1]⟩
        (multiReduction .maximumf [0] ⟨1, ![1]⟩
          (shapeCast ⟨2, ![n0, 1]⟩ (multiReduction .maximumf [1] ⟨1, ![n0]⟩ (absf t) 0xFF800000#32 hr1 (.inl rfl) rfl) hc1)
          0xFF800000#32 hr0 (.inl rfl) rfl)
        hc0)
      (broadcast ⟨2, ![1, 1]⟩ (Scalar.ofBits .f32 0x42FE0000#32)))
    (broadcast ⟨2, ![1, 1]⟩ (Scalar.ofBits .f32 0x322BCC77#32))

/-- The printed quantization of a rank-2 tensor `t` at a [1, 1] scale `s`: `t` over the broadcast scale, rounded to
    nearest even, at least -127, at most 127, times the broadcast scale. -/
def pquant {n0 n1 : Nat} (t : FVec Ideal ⟨2, ![n0, n1]⟩ .f32) (s : FVec Ideal ⟨2, ![1, 1]⟩ .f32)
    (hb : (⟨2, ![1, 1]⟩ : Shape).Broadcasts ⟨2, ![n0, n1]⟩) : FVec Ideal ⟨2, ![n0, n1]⟩ .f32 :=
  mulf
    (minimumf (broadcast ⟨2, ![n0, n1]⟩ (Scalar.ofBits .f32 0x42FE0000#32))
      (maximumf (broadcast ⟨2, ![n0, n1]⟩ (Scalar.ofBits .f32 0xC2FE0000#32))
        (roundeven (divf t (broadcastTo ⟨2, ![n0, n1]⟩ s hb)))))
    (broadcastTo ⟨2, ![n0, n1]⟩ s hb)

/-- A maximum along the rows, from `-inf`, at row `a`: the supremum of that row's entries. -/
private theorem rowmax_apply {n0 n1 : Nat} (x : FVec Ideal ⟨2, ![n0, n1]⟩ .f32)
    (hr1 : (⟨2, ![n0, n1]⟩ : Shape).Reduces [1] ⟨1, ![n0]⟩) (a : Fin n0) :
    multiReduction .maximumf [1] ⟨1, ![n0]⟩ x 0xFF800000#32 hr1 (.inl rfl) rfl (ix1 a)
      = (Finset.univ : Finset (Fin n1)).sup fun b => x (ix2 a b) := by
  refine (Ideal.multiReduction_maximumf_single (a := 1) x 0xFF800000#32 hr1 (.inl rfl) rfl (ix1 a)).trans ?_
  refine (fold_max_eq_sup (Finset.univ : Finset (Fin n1)) (x ∘ hr1.lift (ix1 a))).trans ?_
  refine Finset.sup_congr rfl fun b _ => ?_
  show x (hr1.lift (ix1 a) b) = x (ix2 a b)
  congr 1
  funext c
  apply Fin.ext
  match c with
  | ⟨0, _⟩ => rfl
  | ⟨1, _⟩ => rfl

/-- A maximum down a column, from `-inf`: the supremum of the column's entries. -/
private theorem colmax_apply {n0 : Nat} (x : FVec Ideal ⟨2, ![n0, 1]⟩ .f32)
    (hr0 : (⟨2, ![n0, 1]⟩ : Shape).Reduces [0] ⟨1, ![1]⟩) :
    multiReduction .maximumf [0] ⟨1, ![1]⟩ x 0xFF800000#32 hr0 (.inl rfl) rfl (ix1 (0 : Fin 1))
      = (Finset.univ : Finset (Fin n0)).sup fun a => x (ix2 a (0 : Fin 1)) := by
  refine (Ideal.multiReduction_maximumf_single (a := 0) x 0xFF800000#32 hr0 (.inl rfl) rfl (ix1 (0 : Fin 1))).trans ?_
  refine (fold_max_eq_sup (Finset.univ : Finset (Fin n0)) (x ∘ hr0.lift (ix1 (0 : Fin 1)))).trans ?_
  refine Finset.sup_congr rfl fun a _ => ?_
  show x (hr0.lift (ix1 (0 : Fin 1)) a) = x (ix2 a (0 : Fin 1))
  congr 1
  funext c
  apply Fin.ext
  match c with
  | ⟨0, _⟩ => rfl
  | ⟨1, _⟩ => rfl

/-- A vector viewed as a column reads its entry `a` at `(a, 0)`. -/
private theorem col_apply {n0 : Nat} (x : FVec Ideal ⟨1, ![n0]⟩ .f32)
    (hc1 : (⟨1, ![n0]⟩ : Shape).ShapeCasts ⟨2, ![n0, 1]⟩) (a : Fin n0) :
    shapeCast ⟨2, ![n0, 1]⟩ x hc1 (ix2 a (0 : Fin 1)) = x (ix1 a) := by
  refine shapeCast_apply x hc1 (ix2 a (0 : Fin 1)) (ix1 a) ?_
  rw [Shape.rowMajor_val_one, Shape.rowMajor_val_two]
  show a.val = a.val * 1 + 0
  omega

/-- A one-entry vector viewed as a one-entry matrix reads its entry. -/
private theorem one_apply (x : FVec Ideal ⟨1, ![1]⟩ .f32)
    (hc0 : (⟨1, ![1]⟩ : Shape).ShapeCasts ⟨2, ![1, 1]⟩) (u v : Fin 1) :
    shapeCast ⟨2, ![1, 1]⟩ x hc0 (ix2 u v) = x (ix1 (0 : Fin 1)) := by
  refine shapeCast_apply x hc0 (ix2 u v) (ix1 (0 : Fin 1)) ?_
  rw [Shape.rowMajor_val_one, Shape.rowMajor_val_two]
  show 0 = u.val * 1 + v.val
  omega

/-- The printed scale, at its one index, is the specification's scale of the tensor's largest magnitude. -/
theorem pscale_apply {n0 n1 : Nat} (t : FVec Ideal ⟨2, ![n0, n1]⟩ .f32)
    (hr1 : (⟨2, ![n0, n1]⟩ : Shape).Reduces [1] ⟨1, ![n0]⟩) (hc1 : (⟨1, ![n0]⟩ : Shape).ShapeCasts ⟨2, ![n0, 1]⟩)
    (hr0 : (⟨2, ![n0, 1]⟩ : Shape).Reduces [0] ⟨1, ![1]⟩) (hc0 : (⟨1, ![1]⟩ : Shape).ShapeCasts ⟨2, ![1, 1]⟩)
    (u v : Fin 1) : pscale t hr1 hc1 hr0 hc0 (ix2 u v) = qs (amax t) := by
  -- the [1, 1] tensor's entry is the largest of the column of row maxima of the magnitudes
  have h : shapeCast ⟨2, ![1, 1]⟩
      (multiReduction .maximumf [0] ⟨1, ![1]⟩
        (shapeCast ⟨2, ![n0, 1]⟩ (multiReduction .maximumf [1] ⟨1, ![n0]⟩ (absf t) 0xFF800000#32 hr1 (.inl rfl) rfl) hc1)
        0xFF800000#32 hr0 (.inl rfl) rfl)
      hc0 (ix2 u v) = amax t := by
    rw [one_apply, colmax_apply, amax_ix2]
    refine Finset.sup_congr rfl fun a _ => ?_
    rw [col_apply, rowmax_apply]
    rfl
  show max (Ideal.div (shapeCast ⟨2, ![1, 1]⟩
      (multiReduction .maximumf [0] ⟨1, ![1]⟩
        (shapeCast ⟨2, ![n0, 1]⟩ (multiReduction .maximumf [1] ⟨1, ![n0]⟩ (absf t) 0xFF800000#32 hr1 (.inl rfl) rfl) hc1)
        0xFF800000#32 hr0 (.inl rfl) rfl)
      hc0 (ix2 u v)) (Ideal.ofBits .f32 0x42FE0000#32)) (Ideal.ofBits .f32 0x322BCC77#32) = _
  rw [h]
  rfl

/-- The printed quantization at an entry is `fq` of the scale's one entry. -/
theorem pquant_apply {n0 n1 : Nat} (t : FVec Ideal ⟨2, ![n0, n1]⟩ .f32) (s : FVec Ideal ⟨2, ![1, 1]⟩ .f32)
    (hb : (⟨2, ![1, 1]⟩ : Shape).Broadcasts ⟨2, ![n0, n1]⟩) (a : Fin n0) (b : Fin n1) :
    pquant t s hb (ix2 a b) = fq (s (ix2 (0 : Fin 1) (0 : Fin 1))) (t (ix2 a b)) := by
  -- both axes of the scale are unit axes, so the broadcast reads its one entry everywhere
  have hbt : broadcastTo ⟨2, ![n0, n1]⟩ s hb (ix2 a b) = s (ix2 (0 : Fin 1) (0 : Fin 1)) :=
    broadcastTo_apply s hb (ix2 a b) (ix2 0 0) (fun c => by match c with | ⟨0, _⟩ => rfl | ⟨1, _⟩ => rfl)
  show min (Ideal.ofBits .f32 0x42FE0000#32)
      (max (Ideal.ofBits .f32 0xC2FE0000#32)
        (Ideal.liftRound Ideal.roundHalfEven (Ideal.div (t (ix2 a b)) (broadcastTo ⟨2, ![n0, n1]⟩ s hb (ix2 a b)))))
      * broadcastTo ⟨2, ![n0, n1]⟩ s hb (ix2 a b) = _
  rw [hbt]
  rfl

/-- The printed chain on a tensor is the specification's fake quantization of it. -/
theorem pquant_pscale {n0 n1 : Nat} (t : FVec Ideal ⟨2, ![n0, n1]⟩ .f32)
    (hr1 : (⟨2, ![n0, n1]⟩ : Shape).Reduces [1] ⟨1, ![n0]⟩) (hc1 : (⟨1, ![n0]⟩ : Shape).ShapeCasts ⟨2, ![n0, 1]⟩)
    (hr0 : (⟨2, ![n0, 1]⟩ : Shape).Reduces [0] ⟨1, ![1]⟩) (hc0 : (⟨1, ![1]⟩ : Shape).ShapeCasts ⟨2, ![1, 1]⟩)
    (hb : (⟨2, ![1, 1]⟩ : Shape).Broadcasts ⟨2, ![n0, n1]⟩) :
    pquant t (pscale t hr1 hc1 hr0 hc0) hb = fqT t := by
  funext j
  obtain ⟨a, b, rfl⟩ : ∃ (a : Fin n0) (b : Fin n1), j = ix2 a b := ⟨j 0, j 1, eq_ix2 j⟩
  rw [pquant_apply, pscale_apply]
  rfl

end Cert.KernelIdeal.Val

end
-- ==== Proof.R2Mat.lean ====
/-
  The kernel's two matrix products into a zero accumulator, read at an index: each is the sum, over the contracted
  axis, of the products of the left operand's row entry and the right operand's column entry.
-/
import proofs.«422627_j82746839925439_3_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-! ## The operand indices of the first product, axis by axis

At output index `i` and contraction index `q` the left operand is read at (row of `i`, `q`) and the right operand at
(`q`, column of `i`). -/

theorem lhs_fc1_0 (i : S64x256.Idx) (q : dot_S64x1024_S1024x256_S64x256_1_0_0_1_n_n.contr.Idx) :
    (dot_S64x1024_S1024x256_S64x256_1_0_0_1_n_n.lhsIdx i q 0).val = (i 0).val := by
  unfold DotDims.lhsIdx
  rw [dif_neg (show ¬(0 : Fin S64x1024.rank) ∈ dot_S64x1024_S1024x256_S64x256_1_0_0_1_n_n.lhsBatch by decide),
    dif_pos (show (0 : Fin S64x1024.rank) ∈ dot_S64x1024_S1024x256_S64x256_1_0_0_1_n_n.lhsNonContracting by decide)]
  rfl
theorem lhs_fc1_1 (i : S64x256.Idx) (q : dot_S64x1024_S1024x256_S64x256_1_0_0_1_n_n.contr.Idx) :
    (dot_S64x1024_S1024x256_S64x256_1_0_0_1_n_n.lhsIdx i q 1).val = (q ⟨0, by decide⟩).val :=
  dot_S64x1024_S1024x256_S64x256_1_0_0_1_n_n.lhsIdx_val_of_single rfl i q
theorem rhs_fc1_0 (i : S64x256.Idx) (q : dot_S64x1024_S1024x256_S64x256_1_0_0_1_n_n.contr.Idx) :
    (dot_S64x1024_S1024x256_S64x256_1_0_0_1_n_n.rhsIdx i q 0).val = (q ⟨0, by decide⟩).val :=
  dot_S64x1024_S1024x256_S64x256_1_0_0_1_n_n.rhsIdx_val_of_single rfl i q
theorem rhs_fc1_1 (i : S64x256.Idx) (q : dot_S64x1024_S1024x256_S64x256_1_0_0_1_n_n.contr.Idx) :
    (dot_S64x1024_S1024x256_S64x256_1_0_0_1_n_n.rhsIdx i q 1).val = (i 1).val := by
  unfold DotDims.rhsIdx
  rw [dif_neg (show ¬(1 : Fin S1024x256.rank) ∈ dot_S64x1024_S1024x256_S64x256_1_0_0_1_n_n.rhsBatch by decide),
    dif_pos (show (1 : Fin S1024x256.rank) ∈ dot_S64x1024_S1024x256_S64x256_1_0_0_1_n_n.rhsNonContracting by decide)]
  rfl

/-- The first layer's product: [64, 1024] by [1024, 256], contracted over the 1024 channels. -/
theorem matmul_fc1_apply (l : FVec Ideal S64x1024 .f32) (r : FVec Ideal S1024x256 .f32) (a : Fin 64) (j : Fin 256) :
    matmul dot_S64x1024_S1024x256_S64x256_1_0_0_1_n_n none l r (constant S64x256 .f32 0x00000000#32) (ix2 a j)
      = ∑ k : Fin 1024, l (ix2 a k) * r (ix2 k j) := by
  simp only [matmul]
  rw [Ideal.matmul_constant_zero_apply,
    ← Equiv.sum_comp (contrEquiv1 dot_S64x1024_S1024x256_S64x256_1_0_0_1_n_n 1024 rfl rfl).symm]
  refine Finset.sum_congr rfl fun k _ => ?_
  have hk := contrEquiv1_symm_val dot_S64x1024_S1024x256_S64x256_1_0_0_1_n_n 1024 rfl rfl k
  have el : dot_S64x1024_S1024x256_S64x256_1_0_0_1_n_n.lhsIdx (ix2 a j)
      ((contrEquiv1 dot_S64x1024_S1024x256_S64x256_1_0_0_1_n_n 1024 rfl rfl).symm k) = ix2 a k :=
    funext fun b => Fin.ext (by
      match b with
      | ⟨0, _⟩ => exact lhs_fc1_0 _ _
      | ⟨1, _⟩ => exact (lhs_fc1_1 _ _).trans hk)
  have er : dot_S64x1024_S1024x256_S64x256_1_0_0_1_n_n.rhsIdx (ix2 a j)
      ((contrEquiv1 dot_S64x1024_S1024x256_S64x256_1_0_0_1_n_n 1024 rfl rfl).symm k) = ix2 k j :=
    funext fun b => Fin.ext (by
      match b with
      | ⟨0, _⟩ => exact (rhs_fc1_0 _ _).trans hk
      | ⟨1, _⟩ => exact rhs_fc1_1 _ _)
  rw [el, er]

/-! ## The operand indices of the second product, axis by axis -/

theorem lhs_fc2_0 (i : S64x1024.Idx) (q : dot_S64x256_S256x1024_S64x1024_1_0_0_1_n_n.contr.Idx) :
    (dot_S64x256_S256x1024_S64x1024_1_0_0_1_n_n.lhsIdx i q 0).val = (i 0).val := by
  unfold DotDims.lhsIdx
  rw [dif_neg (show ¬(0 : Fin S64x256.rank) ∈ dot_S64x256_S256x1024_S64x1024_1_0_0_1_n_n.lhsBatch by decide),
    dif_pos (show (0 : Fin S64x256.rank) ∈ dot_S64x256_S256x1024_S64x1024_1_0_0_1_n_n.lhsNonContracting by decide)]
  rfl
theorem lhs_fc2_1 (i : S64x1024.Idx) (q : dot_S64x256_S256x1024_S64x1024_1_0_0_1_n_n.contr.Idx) :
    (dot_S64x256_S256x1024_S64x1024_1_0_0_1_n_n.lhsIdx i q 1).val = (q ⟨0, by decide⟩).val :=
  dot_S64x256_S256x1024_S64x1024_1_0_0_1_n_n.lhsIdx_val_of_single rfl i q
theorem rhs_fc2_0 (i : S64x1024.Idx) (q : dot_S64x256_S256x1024_S64x1024_1_0_0_1_n_n.contr.Idx) :
    (dot_S64x256_S256x1024_S64x1024_1_0_0_1_n_n.rhsIdx i q 0).val = (q ⟨0, by decide⟩).val :=
  dot_S64x256_S256x1024_S64x1024_1_0_0_1_n_n.rhsIdx_val_of_single rfl i q
theorem rhs_fc2_1 (i : S64x1024.Idx) (q : dot_S64x256_S256x1024_S64x1024_1_0_0_1_n_n.contr.Idx) :
    (dot_S64x256_S256x1024_S64x1024_1_0_0_1_n_n.rhsIdx i q 1).val = (i 1).val := by
  unfold DotDims.rhsIdx
  rw [dif_neg (show ¬(1 : Fin S256x1024.rank) ∈ dot_S64x256_S256x1024_S64x1024_1_0_0_1_n_n.rhsBatch by decide),
    dif_pos (show (1 : Fin S256x1024.rank) ∈ dot_S64x256_S256x1024_S64x1024_1_0_0_1_n_n.rhsNonContracting by decide)]
  rfl

/-- The second layer's product: [64, 256] by [256, 1024], contracted over the 256 hidden features. -/
theorem matmul_fc2_apply (l : FVec Ideal S64x256 .f32) (r : FVec Ideal S256x1024 .f32) (a : Fin 64) (j : Fin 1024) :
    matmul dot_S64x256_S256x1024_S64x1024_1_0_0_1_n_n none l r (constant S64x1024 .f32 0x00000000#32) (ix2 a j)
      = ∑ k : Fin 256, l (ix2 a k) * r (ix2 k j) := by
  simp only [matmul]
  rw [Ideal.matmul_constant_zero_apply,
    ← Equiv.sum_comp (contrEquiv1 dot_S64x256_S256x1024_S64x1024_1_0_0_1_n_n 256 rfl rfl).symm]
  refine Finset.sum_congr rfl fun k _ => ?_
  have hk := contrEquiv1_symm_val dot_S64x256_S256x1024_S64x1024_1_0_0_1_n_n 256 rfl rfl k
  have el : dot_S64x256_S256x1024_S64x1024_1_0_0_1_n_n.lhsIdx (ix2 a j)
      ((contrEquiv1 dot_S64x256_S256x1024_S64x1024_1_0_0_1_n_n 256 rfl rfl).symm k) = ix2 a k :=
    funext fun b => Fin.ext (by
      match b with
      | ⟨0, _⟩ => exact lhs_fc2_0 _ _
      | ⟨1, _⟩ => exact (lhs_fc2_1 _ _).trans hk)
  have er : dot_S64x256_S256x1024_S64x1024_1_0_0_1_n_n.rhsIdx (ix2 a j)
      ((contrEquiv1 dot_S64x256_S256x1024_S64x1024_1_0_0_1_n_n 256 rfl rfl).symm k) = ix2 k j :=
    funext fun b => Fin.ext (by
      match b with
      | ⟨0, _⟩ => exact (rhs_fc2_0 _ _).trans hk
      | ⟨1, _⟩ => exact rhs_fc2_1 _ _)
  rw [el, er]

end Cert.KernelIdeal.Val

end
-- ==== Proof.R2.lean ====
/-
  Launch 2's output array after its one grid point: the gate of the pooled means and the two layers' weights and biases.

  The body's one stored value is read as: the pooled means fake-quantized twice; times the transposed fake-quantized
  first weights, summed over the 1024 channels, plus the bias, the larger of that and zero; that fake-quantized; times the
  transposed fake-quantized second weights, summed over the 256 hidden features, plus the bias; over 6 plus one half,
  clipped to [0, 1]. With one grid point and every index map constant zero, each window's block is its whole array, so
  the array after the launch is that value of the five arrays.
-/
import proofs.«422627_j82746839925439_3_alg».proof.Proof.Gen.KernelIdeal.Frame
import proofs.«422627_j82746839925439_3_alg».proof.Proof.KVal
import proofs.«422627_j82746839925439_3_alg».proof.Proof.SpecLemmas
import proofs.«422627_j82746839925439_3_alg».proof.Proof.R2Quant
import proofs.«422627_j82746839925439_3_alg».proof.Proof.R2Mat
import Idealize.ShloMosaic.Lib.Pipeline.Value
import Idealize.ShloMosaic.Lib.ValueIdx
import Idealize.ShloMosaic.Lib.ValueLayout
import Idealize.ShloMosaic.PureOps.Ideal.Laws

noncomputable section

set_option maxRecDepth 16384

namespace Cert.KernelIdeal.Val

open Cert.KernelIdeal Cert.KernelIdeal.Gen Cert.SE Idealize.ShloMosaic Idealize.ShloMosaic.TcCoe Idealize.ShloMosaic.ValueIdx Idealize.SL.Sem
open Idealize.ShloMosaic.Pipeline (Dat Cfg Window)

-- the TensorCore's buffer contents when the launch is entered: any contents
variable (V : (c : Dev nD) → (b : Ref sig .tc) → Buf (Elt Ideal) ((c : Thread nD τ).loc b))

/-! ## The printed fake quantization at the four shapes it is applied at -/

abbrev Qx (t : FVec Ideal S64x1024 .f32) : FVec Ideal S64x1024 .f32 :=
  pquant t (pscale t reduces_S64x1024_S64 shapeCasts_S64_S64x1 reduces_S64x1_S1 shapeCasts_S1_S1x1) broadcasts_S1x1_S64x1024
abbrev Qw1 (t : FVec Ideal S256x1024 .f32) : FVec Ideal S256x1024 .f32 :=
  pquant t (pscale t reduces_S256x1024_S256 shapeCasts_S256_S256x1 reduces_S256x1_S1 shapeCasts_S1_S1x1) broadcasts_S1x1_S256x1024
abbrev Qh (t : FVec Ideal S64x256 .f32) : FVec Ideal S64x256 .f32 :=
  pquant t (pscale t reduces_S64x256_S64 shapeCasts_S64_S64x1 reduces_S64x1_S1 shapeCasts_S1_S1x1) broadcasts_S1x1_S64x256
abbrev Qw2 (t : FVec Ideal S1024x256 .f32) : FVec Ideal S1024x256 .f32 :=
  pquant t (pscale t reduces_S1024x256_S1024 shapeCasts_S1024_S1024x1 reduces_S1024x1_S1 shapeCasts_S1_S1x1) broadcasts_S1x1_S1024x256

theorem Qx_eq (t : FVec Ideal S64x1024 .f32) : Qx t = fqT t := pquant_pscale t _ _ _ _ _
theorem Qw1_eq (t : FVec Ideal S256x1024 .f32) : Qw1 t = fqT t := pquant_pscale t _ _ _ _ _
theorem Qh_eq (t : FVec Ideal S64x256 .f32) : Qh t = fqT t := pquant_pscale t _ _ _ _ _
theorem Qw2_eq (t : FVec Ideal S1024x256 .f32) : Qw2 t = fqT t := pquant_pscale t _ _ _ _ _

/-! ## The pooled means, quantized twice -/

theorem pay2_eq (x0 : Vec Ideal S64x1024 .f32) : k2_pay2 x0 = fqT x0 := by
  have h : k2_pay2 x0 = Qx (shapeCast S64x1024 x0 shapeCasts_S64x1024_S64x1024) := rfl
  rw [h, shapeCast_self, Qx_eq]

theorem lhs1_eq (x0 : Vec Ideal S64x1024 .f32) :
    mulf (minimumf (k2_pay5 (F := Ideal)) (k2_pay4 x0)) (broadcastTo S64x1024 (k2_pay3 x0) broadcasts_S1x1_S64x1024)
      = fqT (fqT x0) := by
  have h : mulf (minimumf (k2_pay5 (F := Ideal)) (k2_pay4 x0)) (broadcastTo S64x1024 (k2_pay3 x0) broadcasts_S1x1_S64x1024)
      = Qx (k2_pay2 x0) := rfl
  rw [h, Qx_eq, pay2_eq]

/-! ## The first layer: the product over the 1024 channels, the bias, the relu -/

/-- The first layer as printed, over its left operand `l`: `l` times the transposed quantized weights, plus the bias
    row broadcast over the 64 rows, and the larger of that and zero. -/
def hid (l : FVec Ideal S64x1024 .f32) (W1 : Vec Ideal S256x1024 .f32) (b1 : Vec Ideal S256 .f32) : FVec Ideal S64x256 .f32 :=
  maximumf
    (addf
      (matmul dot_S64x1024_S1024x256_S64x256_1_0_0_1_n_n none l
        (transpose S1024x256 [1, 0] (Qw1 W1) transposes_S256x1024_p1_0_S1024x256) (constant S64x256 .f32 0x00000000#32))
      (broadcastTo S64x256 (shapeCast S1x256 b1 shapeCasts_S256_S1x256) broadcasts_S1x256_S64x256))
    (broadcast S64x256 (Scalar.ofBits .f32 0x00000000#32))

theorem pay6_eq (v2 : Vec Ideal S256x1024 .f32) (v4 : Vec Ideal S256 .f32) (v32 : FVec Ideal S1x1 .f32)
    (v37 v38 : FVec Ideal S64x1024 .f32) :
    k2_pay6 v2 v4 v32 v37 v38
      = Qh (hid (mulf (minimumf v38 v37) (broadcastTo S64x1024 v32 broadcasts_S1x1_S64x1024)) v2 v4) := rfl

theorem hid_apply (l : FVec Ideal S64x1024 .f32) (W1 : Vec Ideal S256x1024 .f32) (b1 : Vec Ideal S256 .f32)
    (a : Fin 64) (j : Fin 256) :
    hid l W1 b1 (ix2 a j)
      = max ((∑ k : Fin 1024, l (ix2 a k) * fqT W1 (ix2 j k)) + b1 (ix1 j)) (Ideal.ofBits .f32 0x00000000#32) := by
  unfold hid
  rw [maximumf_apply, addf_apply, matmul_fc1_apply, broadcastTo_1b_ab_apply, shapeCast_a_1a_apply, broadcast_apply]
  refine congrArg₂ max (congrArg (· + _) (Finset.sum_congr rfl fun k _ => ?_)) rfl
  rw [transpose_ix2_apply, Qw1_eq]

theorem hid_eq_fc1 (x0 : Vec Ideal S64x1024 .f32) (W1 : Vec Ideal S256x1024 .f32) (b1 : Vec Ideal S256 .f32) :
    hid (fqT (fqT x0)) W1 b1 = fc1 x0 W1 b1 := by
  funext i
  obtain ⟨a, j, rfl⟩ : ∃ (a : Fin 64) (j : Fin 256), i = ix2 a j := ⟨i 0, i 1, eq_ix2 i⟩
  rw [hid_apply]
  rfl

/-! ## The second layer: the product over the 256 hidden features, the bias, the hard sigmoid -/

/-- The second layer as printed, over its left operand `h`: `h` times the transposed quantized weights, plus the bias
    row, over 6, plus one half, clipped to [0, 1]. -/
def outl (h : FVec Ideal S64x256 .f32) (W2 : Vec Ideal S1024x256 .f32) (b2 : Vec Ideal S1024 .f32) : FVec Ideal S64x1024 .f32 :=
  minimumf (broadcast S64x1024 (Scalar.ofBits .f32 0x3F800000#32))
    (maximumf (broadcast S64x1024 (Scalar.ofBits .f32 0x00000000#32))
      (addf
        (divf
          (addf
            (matmul dot_S64x256_S256x1024_S64x1024_1_0_0_1_n_n none h
              (transpose S256x1024 [1, 0] (Qw2 W2) transposes_S1024x256_p1_0_S256x1024) (constant S64x1024 .f32 0x00000000#32))
            (broadcastTo S64x1024 (shapeCast S1x1024 b2 shapeCasts_S1024_S1x1024) broadcasts_S1x1024_S64x1024))
          (broadcast S64x1024 (Scalar.ofBits .f32 0x40C00000#32)))
        (broadcast S64x1024 (Scalar.ofBits .f32 0x3F000000#32))))

theorem pay1_eq (v3 : Vec Ideal S1024x256 .f32) (v5 : Vec Ideal S1024 .f32) (v84 : FVec Ideal S64x256 .f32) :
    k2_pay1 v3 v5 v84 = outl v84 v3 v5 := rfl

theorem outl_apply (h : FVec Ideal S64x256 .f32) (W2 : Vec Ideal S1024x256 .f32) (b2 : Vec Ideal S1024 .f32)
    (a : Fin 64) (j : Fin 1024) :
    outl h W2 b2 (ix2 a j)
      = min (Ideal.ofBits .f32 0x3F800000#32) (max (Ideal.ofBits .f32 0x00000000#32)
          (Ideal.div ((∑ k : Fin 256, h (ix2 a k) * fqT W2 (ix2 j k)) + b2 (ix1 j)) (Ideal.ofBits .f32 0x40C00000#32)
            + Ideal.ofBits .f32 0x3F000000#32)) := by
  unfold outl
  rw [minimumf_apply, maximumf_apply, addf_apply, divf_apply, addf_apply, matmul_fc2_apply, broadcastTo_1b_ab_apply,
    shapeCast_a_1a_apply]
  simp only [broadcast_apply]
  refine congrArg₂ min rfl (congrArg₂ max rfl (congrArg (· + _) (congrArg (Ideal.div · _) (congrArg (· + _)
    (Finset.sum_congr rfl fun k _ => ?_)))))
  rw [transpose_ix2_apply, Qw2_eq]

theorem outl_eq_fc2 (h : FVec Ideal S64x256 .f32) (W2 : Vec Ideal S1024x256 .f32) (b2 : Vec Ideal S1024 .f32) :
    outl (fqT h) W2 b2 = fc2 h W2 b2 := by
  funext i
  obtain ⟨a, j, rfl⟩ : ∃ (a : Fin 64) (j : Fin 1024), i = ix2 a j := ⟨i 0, i 1, eq_ix2 i⟩
  rw [outl_apply]
  rfl

/-- The stored payload of the five loaded arrays is the gate. -/
theorem pay_eq_gate (x0 : Vec Ideal S64x1024 .f32) (x1 : Vec Ideal S256x1024 .f32) (x2 : Vec Ideal S256 .f32)
    (x3 : Vec Ideal S1024x256 .f32) (x4 : Vec Ideal S1024 .f32) :
    k2_pay1 x3 x4 (k2_pay6 x1 x2 (k2_pay3 x0) (k2_pay4 x0) (k2_pay5 (F := Ideal))) = gate x0 x1 x2 x3 x4 := by
  rw [pay1_eq, pay6_eq, lhs1_eq, hid_eq_fc1, Qh_eq, outl_eq_fc2]
  rfl

/-! ## From the one block to the array -/

/-- The offset of a whole rank-2 rectangle is zero on both axes. -/
theorem zero_offset2 : (![0, 0] : Fin 2 → Nat) = fun _ => 0 := funext fun a => by fin_cases a <;> rfl
/-- The offset of a whole rank-1 rectangle is zero. -/
theorem zero_offset1 : (![0] : Fin 1 → Nat) = fun _ => 0 := funext fun a => by fin_cases a <;> rfl

/-- Every window's block index is zero on every axis at the one grid point: each block is its whole array. -/
theorem blocks_at_origin : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-- The pooled means' block is the whole [64, 1024] array. -/
theorem means_block_eq (c : Dev nD) (t : Fin cfg2.N) : (iblk2 V c 0 t : Vec Ideal S64x1024 .f32) = V c main_v4 := by
  obtain ⟨e0, e1, -⟩ := blocks_at_origin t
  funext j
  show V c main_v4 (((cfg2.win 0).blk t).view.emb j) = V c main_v4 j
  refine congrArg _ (funext fun a => Fin.ext ?_)
  match a with
  | ⟨0, _⟩ => show win2_0.index t (0 : Fin 2) * 64 + 1 * (j 0).val = (j 0).val; omega
  | ⟨1, _⟩ => show win2_0.index t (1 : Fin 2) * 1024 + 1 * (j 1).val = (j 1).val; omega

/-- The first layer's weight block is the whole [256, 1024] array. -/
theorem w1_block_eq (c : Dev nD) (t : Fin cfg2.N) : (iblk2 V c 1 t : Vec Ideal S256x1024 .f32) = V c main_arg1 := by
  obtain ⟨-, -, e0, e1, -⟩ := blocks_at_origin t
  funext j
  show V c main_arg1 (((cfg2.win 1).blk t).view.emb j) = V c main_arg1 j
  refine congrArg _ (funext fun a => Fin.ext ?_)
  match a with
  | ⟨0, _⟩ => show win2_1.index t (0 : Fin 2) * 256 + 1 * (j 0).val = (j 0).val; omega
  | ⟨1, _⟩ => show win2_1.index t (1 : Fin 2) * 1024 + 1 * (j 1).val = (j 1).val; omega

/-- The first layer's bias block is the whole [256] array. -/
theorem b1_block_eq (c : Dev nD) (t : Fin cfg2.N) : (iblk2 V c 2 t : Vec Ideal S256 .f32) = V c main_arg2 := by
  obtain ⟨-, -, -, -, e0, -⟩ := blocks_at_origin t
  funext j
  show V c main_arg2 (((cfg2.win 2).blk t).view.emb j) = V c main_arg2 j
  refine congrArg _ (funext fun a => Fin.ext ?_)
  match a with
  | ⟨0, _⟩ => show win2_2.index t (0 : Fin 1) * 256 + 1 * (j 0).val = (j 0).val; omega

/-- The second layer's weight block is the whole [1024, 256] array. -/
theorem w2_block_eq (c : Dev nD) (t : Fin cfg2.N) : (iblk2 V c 3 t : Vec Ideal S1024x256 .f32) = V c main_arg3 := by
  obtain ⟨-, -, -, -, -, e0, e1, -⟩ := blocks_at_origin t
  funext j
  show V c main_arg3 (((cfg2.win 3).blk t).view.emb j) = V c main_arg3 j
  refine congrArg _ (funext fun a => Fin.ext ?_)
  match a with
  | ⟨0, _⟩ => show win2_3.index t (0 : Fin 2) * 1024 + 1 * (j 0).val = (j 0).val; omega
  | ⟨1, _⟩ => show win2_3.index t (1 : Fin 2) * 256 + 1 * (j 1).val = (j 1).val; omega

/-- The second layer's bias block is the whole [1024] array. -/
theorem b2_block_eq (c : Dev nD) (t : Fin cfg2.N) : (iblk2 V c 4 t : Vec Ideal S1024 .f32) = V c main_arg4 := by
  obtain ⟨-, -, -, -, -, -, -, e0, -⟩ := blocks_at_origin t
  funext j
  show V c main_arg4 (((cfg2.win 4).blk t).view.emb j) = V c main_arg4 j
  refine congrArg _ (funext fun a => Fin.ext ?_)
  match a with
  | ⟨0, _⟩ => show win2_4.index t (0 : Fin 1) * 1024 + 1 * (j 0).val = (j 0).val; omega

/-- The one store of the body, over any five loaded blocks, writes the gate of them: the store covers the whole
    buffer and each load reads a whole block. -/
theorem stored_eq_gate (x0 : Vec Ideal S64x1024 .f32) (x1 : Vec Ideal S256x1024 .f32) (x2 : Vec Ideal S256 .f32)
    (x3 : Vec Ideal S1024x256 .f32) (x4 : Vec Ideal S1024 .f32) :
    out2_5 x0 x1 x2 x3 x4 = gate x0 x1 x2 x3 x4 := by
  unfold out2_5
  rw [View.canon_unit_zero zero_offset2]
  simp only [View.ld_unit_zero (S := S64x1024) zero_offset2, View.ld_unit_zero (S := S256x1024) zero_offset2,
    View.ld_unit_zero (S := S1024x256) zero_offset2, View.ld_unit_zero (S := S256) zero_offset1, View.ld_unit_zero (S := S1024) zero_offset1]
  exact pay_eq_gate x0 x1 x2 x3 x4

/-- What the grid point writes back is the gate of the five arrays, read through the output's block. -/
theorem gate_written_back (c : Dev nD) (t : Fin cfg2.N) :
    (dat2 V c).flushed 5 t = ((cfg2.win 5).blk t).view.read (Elt Ideal)
      (gate (V c main_v4) (V c main_arg1) (V c main_arg2) (V c main_arg3) (V c main_arg4)) := by
  show (cfg2.win 5).cut (grid2.coords t) ((dat2 V c).after 5 t) = _
  rw [after2_5, stored_eq_gate (iblk2 V c 0 t) (iblk2 V c 1 t) (iblk2 V c 2 t) (iblk2 V c 3 t) (iblk2 V c 4 t),
    means_block_eq V c t, w1_block_eq V c t, b1_block_eq V c t, w2_block_eq V c t, b2_block_eq V c t]
  obtain ⟨-, -, -, -, -, -, -, -, e0, e1⟩ := blocks_at_origin t
  funext j
  show gate (V c main_v4) (V c main_arg1) (V c main_arg2) (V c main_arg3) (V c main_arg4) j
    = gate (V c main_v4) (V c main_arg1) (V c main_arg2) (V c main_arg3) (V c main_arg4) (((cfg2.win 5).blk t).view.emb j)
  refine congrArg _ (funext fun a => Fin.ext ?_)
  match a with
  | ⟨0, _⟩ => show (j 0).val = win2_5.index t (0 : Fin 2) * 64 + 1 * (j 0).val; omega
  | ⟨1, _⟩ => show (j 1).val = win2_5.index t (1 : Fin 2) * 1024 + 1 * (j 1).val; omega

/-- An index is in the output's block iff each coordinate is in the block's range on its axis. -/
theorem mem_gate_block (t : Fin cfg2.N) (i : S64x1024.Idx) :
    i ∈ ((cfg2.win 5).blk t).view.set ↔ ∀ a : Fin 2, win2_5.index t a * S64x1024.size a ≤ (i a).val ∧ (i a).val < win2_5.index t a * S64x1024.size a + S64x1024.size a := by
  show i ∈ ((View.whole main_v5).slice (win2_5.rect t)).set ↔ _
  rw [View.set_slice_whole, Rect.mem_set_unit]
  exact Iff.rfl

/-- The one block covers every index of the [64, 1024] array. -/
theorem gate_block_covers (i : S64x1024.Idx) : ∃ t : Fin cfg2.N, (cfg2.win 5).flush t = true ∧ i ∈ ((cfg2.win 5).blk t).view.set := by
  have hN : 0 < cfg2.N := by decide
  refine ⟨⟨0, hN⟩, flush2_5 _, ?_⟩
  rw [mem_gate_block]
  obtain ⟨-, -, -, -, -, -, -, -, e0, e1⟩ := blocks_at_origin ⟨0, hN⟩
  intro a
  match a with
  | ⟨0, _⟩ => show win2_5.index ⟨0, hN⟩ (0 : Fin 2) * 64 ≤ (i 0).val ∧ (i 0).val < win2_5.index ⟨0, hN⟩ (0 : Fin 2) * 64 + 64; have hi : (i 0).val < 64 := (i 0).isLt; omega
  | ⟨1, _⟩ => show win2_5.index ⟨0, hN⟩ (1 : Fin 2) * 1024 ≤ (i 1).val ∧ (i 1).val < win2_5.index ⟨0, hN⟩ (1 : Fin 2) * 1024 + 1024; have hi : (i 1).val < 1024 := (i 1).isLt; omega

/-- After launch 2 the gate array holds `gate` of the arrays the launch found. -/
theorem arr2 (c : Dev nD) : (dat2 (F := Ideal) V c).arrAt 5 cfg2.N
    = gate (V c main_v4) (V c main_arg1) (V c main_arg2) (V c main_arg3) (V c main_arg4) :=
  (dat2 V c).arrAt_eq_of_cover 5 _ (fun t _ => gate_written_back V c t) gate_block_covers

end Cert.KernelIdeal.Val

end
-- ==== Proof.R3.lean ====
/-
  Launch 3's output array after its 32 grid points: every row of the [65536, 784] view times its gate.
-/
import proofs.«422627_j82746839925439_3_alg».proof.Proof.Gen.KernelIdeal.Frame
import proofs.«422627_j82746839925439_3_alg».proof.Proof.KVal
import proofs.«422627_j82746839925439_3_alg».proof.Proof.SpecLemmas
import Idealize.ShloMosaic.Lib.Pipeline.Value
import Idealize.ShloMosaic.Lib.ValueIdx
import Idealize.ShloMosaic.PureOps.Ideal.Laws

noncomputable section

set_option maxRecDepth 16384

namespace Cert.KernelIdeal.Val

open Cert.KernelIdeal Cert.KernelIdeal.Gen Cert.SE Idealize.ShloMosaic Idealize.ShloMosaic.TcCoe Idealize.ShloMosaic.ValueIdx Idealize.SL.Sem
open Idealize.ShloMosaic.Pipeline (Dat Cfg Window)

/-- The whole-block rectangle's offsets, spelt as the constant zero. -/
theorem zero_off3 : (![0, 0] : Fin 2 → Nat) = fun _ => 0 :=
  funext fun a => by match a with | ⟨0, _⟩ => rfl | ⟨1, _⟩ => rfl

/-- The body's product at an entry of its block: the entry of the row block times the gate of that row
    (the gate block is one column, repeated along the row). -/
theorem prod3_apply (x0 : Vec Ideal S2048x784 .f32) (x1 : Vec Ideal S2048x1 .f32) (p : Fin 2048) (q : Fin 784) :
    k3_pay1 x0 x1 (ix2 p q) = x0 (ix2 p q) * x1 (ix2 p (0 : Fin 1)) := by
  unfold k3_pay1
  refine (mulf_apply _ _ _).trans ?_
  rw [shapeCast_self, shapeCast_self]
  refine congrArg (fun z => x0 (ix2 p q) * z) ?_
  refine broadcastTo_apply x1 broadcasts_S2048x1_S2048x784 (ix2 p q) (ix2 p (0 : Fin 1)) (fun a => ?_)
  match a with
  | ⟨0, _⟩ => rfl
  | ⟨1, _⟩ => rfl

/-- The same entry when the two blocks are read off whole arrays: entry `(p, q)` of the row block sits at index `i`
    of the row array and the gate of row `p` at index `k` of the gate column, `k` the row of `i`. -/
theorem prod3_at (X2 : S65536x784.Idx → EReal) (g : S65536x1.Idx → EReal)
    (x0 : Vec Ideal S2048x784 .f32) (x1 : Vec Ideal S2048x1 .f32) (p : Fin 2048) (q : Fin 784)
    (i : S65536x784.Idx) (k : S65536x1.Idx)
    (h0 : x0 (ix2 p q) = X2 i) (h1 : x1 (ix2 p (0 : Fin 1)) = g k)
    (hk : k = ix2 (⟨(i 0).val, idx2_lt0 i⟩ : Fin 65536) (0 : Fin 1)) :
    k3_pay1 x0 x1 (ix2 p q) = P3 X2 g i := by
  rw [prod3_apply, h0, h1, hk]
  rfl

-- the TensorCore's buffer contents when the launch is entered: any contents
variable (V : (c : Dev nD) → (b : Ref sig .tc) → Buf (Elt Ideal) ((c : Thread nD τ).loc b))

/-- The printed index maps, decided over the grid: both inputs' blocks move with the output's block down the rows,
    no block moves along a row, and the output's block index is the point's number. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (1 : Fin 2) = 0
    ∧ win3_2.index t (0 : Fin 2) = t.val :=
  (by decide +kernel : ∀ t : Fin grid3.N, _)

/-- What point `t` writes back is block `t` of the rows-times-gates array of the two arrays as the launch finds them. -/
theorem flushed3_eq (c : Dev nD) (t : Fin cfg3.N) :
    (dat3 (F := Ideal) V c).flushed 2 t
      = ((cfg3.win 2).blk t).view.read (Elt Ideal) (P3 (V c main_v2) (V c main_v6)) := by
  show (cfg3.win 2).cut (grid3.coords t) ((dat3 V c).after 2 t) = _
  rw [after3_2]
  unfold out3_2
  rw [View.canon_unit_zero zero_off3]
  simp only [View.ld_unit_zero (S := S2048x784) zero_off3, View.ld_unit_zero (S := S2048x1) zero_off3]
  obtain ⟨e0, e1, e2, e3, e4, e5⟩ := idx_facts3 t
  funext j
  obtain ⟨p, q, rfl⟩ : ∃ (p : Fin 2048) (q : Fin 784), j = ix2 p q := ⟨j 0, j 1, eq_ix2 j⟩
  show k3_pay1 (iblk3 V c 0 t) (iblk3 V c 1 t) (ix2 p q)
    = P3 (V c main_v2) (V c main_v6) (((cfg3.win 2).blk t).view.emb (ix2 p q))
  refine prod3_at (V c main_v2) (V c main_v6) (iblk3 V c 0 t) (iblk3 V c 1 t) p q
    (((cfg3.win 2).blk t).view.emb (ix2 p q)) (((cfg3.win 1).blk t).view.emb (ix2 p (0 : Fin 1))) ?_ rfl ?_
  · show V c main_v2 (((cfg3.win 0).blk t).view.emb (ix2 p q)) = V c main_v2 (((cfg3.win 2).blk t).view.emb (ix2 p q))
    refine congrArg (V c main_v2) (funext fun a => Fin.ext ?_)
    match a with
    | ⟨0, _⟩ =>
      show win3_0.index t (0 : Fin 2) * 2048 + 1 * p.val = win3_2.index t (0 : Fin 2) * 2048 + 1 * p.val
      omega
    | ⟨1, _⟩ =>
      show win3_0.index t (1 : Fin 2) * 784 + 1 * q.val = win3_2.index t (1 : Fin 2) * 784 + 1 * q.val
      omega
  · refine funext fun a => Fin.ext ?_
    match a with
    | ⟨0, _⟩ =>
      show win3_1.index t (0 : Fin 2) * 2048 + 1 * p.val = win3_2.index t (0 : Fin 2) * 2048 + 1 * p.val
      omega
    | ⟨1, _⟩ =>
      show win3_1.index t (1 : Fin 2) * 1 + 1 * 0 = 0
      omega

/-- An index of the array is in point `t`'s block iff each coordinate is in the block's range on its axis. -/
theorem mem_blk3 (t : Fin cfg3.N) (i : S65536x784.Idx) :
    i ∈ ((cfg3.win 2).blk t).view.set ↔ ∀ a : Fin 2, win3_2.index t a * S2048x784.size a ≤ (i a).val
      ∧ (i a).val < win3_2.index t a * S2048x784.size a + S2048x784.size a := by
  show i ∈ ((View.whole main_v7).slice (win3_2.rect t)).set ↔ _
  rw [View.set_slice_whole, Rect.mem_set_unit]
  exact Iff.rfl

/-- Every index of the array is in some point's block: row `r` is in the block of point `r / 2048`. -/
theorem cover3 (i : S65536x784.Idx) :
    ∃ t : Fin cfg3.N, (cfg3.win 2).flush t = true ∧ i ∈ ((cfg3.win 2).blk t).view.set := by
  have hi0 : (i 0).val < 65536 := idx2_lt0 i
  have hi1 : (i 1).val < 784 := idx2_lt1 i
  have hN : (i 0).val / 2048 < cfg3.N := by
    rw [show cfg3.N = 32 from N_3]; omega
  refine ⟨⟨(i 0).val / 2048, hN⟩, flush3_2 _, ?_⟩
  obtain ⟨-, -, -, -, e4, e5⟩ := idx_facts3 ⟨(i 0).val / 2048, hN⟩
  rw [mem_blk3]
  intro a
  match a with
  | ⟨0, _⟩ =>
    show win3_2.index ⟨(i 0).val / 2048, hN⟩ (0 : Fin 2) * 2048 ≤ (i 0).val
      ∧ (i 0).val < win3_2.index ⟨(i 0).val / 2048, hN⟩ (0 : Fin 2) * 2048 + 2048
    rw [e5]
    show (i 0).val / 2048 * 2048 ≤ (i 0).val ∧ (i 0).val < (i 0).val / 2048 * 2048 + 2048
    omega
  | ⟨1, _⟩ =>
    show win3_2.index ⟨(i 0).val / 2048, hN⟩ (1 : Fin 2) * 784 ≤ (i 1).val
      ∧ (i 1).val < win3_2.index ⟨(i 0).val / 2048, hN⟩ (1 : Fin 2) * 784 + 784
    rw [e4]
    omega

/-- After launch 3 the product array holds `P3` of the row view and the gate column the launch found. -/
theorem arr3 (c : Dev nD) : (dat3 (F := Ideal) V c).arrAt 2 cfg3.N = P3 (V c main_v2) (V c main_v6) :=
  (dat3 (F := Ideal) V c).arrAt_eq_of_cover 2 (P3 (V c main_v2) (V c main_v6))
    (fun t _ => flushed3_eq V c t) cover3

end Cert.KernelIdeal.Val

end
-- ==== Proof.KChain.lean ====
/-
  The kernel program's result array at the last boundary, read back launch by launch and reshape by reshape to the
  five arguments as launched: it is `kout` of them. Then the program's run with that in its post.
-/
import proofs.«422627_j82746839925439_3_alg».proof.Proof.Gen.KernelIdeal.Frame
import proofs.«422627_j82746839925439_3_alg».proof.Proof.KVal
import proofs.«422627_j82746839925439_3_alg».proof.Proof.KRun
import proofs.«422627_j82746839925439_3_alg».proof.Proof.R0
import proofs.«422627_j82746839925439_3_alg».proof.Proof.R1
import proofs.«422627_j82746839925439_3_alg».proof.Proof.R2
import proofs.«422627_j82746839925439_3_alg».proof.Proof.R3
import Idealize.ShloMosaic.Lib.StableHlo.Run

noncomputable section

set_option maxRecDepth 16384

namespace Cert.KernelIdeal.Val

open Cert.KernelIdeal Cert.KernelIdeal.Gen Cert.SE Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## Stretches of one reshape -/

/-- A stretch that is one reshape leaves every buffer but its result as it was. -/
theorem after_reshape_ne {x y : Ref sig .tc} (he : x.ty.elt = y.ty.elt) (hn : x.ty.shape.ShapeCasts y.ty.shape)
    (hx : x.space ≠ .host ∧ (x : DevRef τ sig).isScoped = false) (hy : y.space ≠ .host ∧ (y : DevRef τ sig).isScoped = false)
    (W : Valuation τ sig (Elt Ideal)) {r : Ref sig .tc} (h : r ≠ y) :
    StableHlo.after [StableHlo.reshape (τ := τ) (Val := Elt Ideal) x y he hn hx hy] W (Proc.devRef .tc r)
      = W (Proc.devRef .tc r) :=
  StableHlo.reshape_result_ne x y he hn hx hy W h

/-! ## Launch 0: its entry and its exit -/

/-- At launch 0's entry the lane view is the first argument reshaped. -/
theorem W1_v0 (c : Dev nD) : W1 m ρ c (Proc.devRef .tc main_v0)
    = shapeCast S3136x16384 (m ((c.tc : Thread nD τ).loc main_arg0)) shapeCasts_S64x1024x28x28_S3136x16384 := by
  show StableHlo.after hostOps0 _ (Proc.devRef .tc main_v0) = _
  after_results
  rfl

/-- At launch 0's exit the partials are `P0` of that view. -/
theorem W2_v1 (c : Dev nD) : W2 m ρ c (Proc.devRef .tc main_v1)
    = P0 (shapeCast S3136x16384 (m ((c.tc : Thread nD τ).loc main_arg0)) shapeCasts_S64x1024x28x28_S3136x16384) :=
  (W2_arr m ρ c 1).trans ((arr0 (V1 m ρ) c).trans (congrArg P0 (W1_v0 m ρ c)))

/-- The first argument is as launched at launch 0's exit. -/
theorem W2_arg0 (c : Dev nD) : W2 m ρ c (Proc.devRef .tc main_arg0) = m ((c.tc : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := after_reshape_ne _ _ _ _ _ (by decide)
    _ = m ((c.tc : Thread nD τ).loc main_arg0) := rfl

/-! ## Launch 1: its entry and its exit -/

/-- The partials are untouched by the reshape before launch 1. -/
theorem W3_v1 (c : Dev nD) : W3 m ρ c (Proc.devRef .tc main_v1)
    = P0 (shapeCast S3136x16384 (m ((c.tc : Thread nD τ).loc main_arg0)) shapeCasts_S64x1024x28x28_S3136x16384) :=
  (after_reshape_ne _ _ _ _ _ (by decide)).trans (W2_v1 m ρ c)

/-- At launch 1's entry the row view is the first argument reshaped. -/
theorem W3_v2 (c : Dev nD) : W3 m ρ c (Proc.devRef .tc main_v2)
    = shapeCast S65536x784 (m ((c.tc : Thread nD τ).loc main_arg0)) shapeCasts_S64x1024x28x28_S65536x784 := by
  have e : W3 m ρ c (Proc.devRef .tc main_v2)
      = shapeCast S65536x784 (W2 m ρ c (Proc.devRef .tc main_arg0)) shapeCasts_S64x1024x28x28_S65536x784 := by
    show StableHlo.after hostOps1 _ (Proc.devRef .tc main_v2) = _
    after_results
    rfl
  rw [e, W2_arg0]

/-- At launch 1's exit the pooled column is `P1` of the partials and the row view. -/
theorem W4_v3 (c : Dev nD) : W4 m ρ c (Proc.devRef .tc main_v3)
    = P1 (P0 (shapeCast S3136x16384 (m ((c.tc : Thread nD τ).loc main_arg0)) shapeCasts_S64x1024x28x28_S3136x16384))
        (shapeCast S65536x784 (m ((c.tc : Thread nD τ).loc main_arg0)) shapeCasts_S64x1024x28x28_S65536x784) :=
  (W4_arr m ρ c 2).trans ((arr1 (V3 m ρ) c).trans (congrArg₂ P1 (W3_v1 m ρ c) (W3_v2 m ρ c)))

/-- Launch 1 only reads the row view: it leaves it as it found it. -/
theorem W4_v2 (c : Dev nD) : W4 m ρ c (Proc.devRef .tc main_v2)
    = shapeCast S65536x784 (m ((c.tc : Thread nD τ).loc main_arg0)) shapeCasts_S64x1024x28x28_S65536x784 :=
  (W4_arr m ρ c 1).trans ((((dat1 (V3 m ρ) c).arrAt_in 1 rfl _).trans (A_eq1 (V3 m ρ) c 1)).trans (W3_v2 m ρ c))

/-! ## Launch 2: its entry and its exit -/

/-- At launch 2's entry the pooled array is the pooled column reshaped. -/
theorem W5_v4 (c : Dev nD) : W5 m ρ c (Proc.devRef .tc main_v4)
    = shapeCast S64x1024
      (P1 (P0 (shapeCast S3136x16384 (m ((c.tc : Thread nD τ).loc main_arg0)) shapeCasts_S64x1024x28x28_S3136x16384))
        (shapeCast S65536x784 (m ((c.tc : Thread nD τ).loc main_arg0)) shapeCasts_S64x1024x28x28_S65536x784))
      shapeCasts_S65536x1_S64x1024 := by
  have e : W5 m ρ c (Proc.devRef .tc main_v4)
      = shapeCast S64x1024 (W4 m ρ c (Proc.devRef .tc main_v3)) shapeCasts_S65536x1_S64x1024 := by
    show StableHlo.after hostOps2 _ (Proc.devRef .tc main_v4) = _
    after_results
    rfl
  rw [e, W4_v3]

/-- Argument 1 is as launched at launch 2's entry: nothing before it writes it. -/
theorem W5_arg1 (c : Dev nD) : W5 m ρ c (Proc.devRef .tc main_arg1) = m ((c.tc : Thread nD τ).loc main_arg1) :=
  calc W5 m ρ c (Proc.devRef .tc main_arg1)
    _ = W4 m ρ c (Proc.devRef .tc main_arg1) := after_reshape_ne _ _ _ _ _ (by decide)
    _ = W3 m ρ c (Proc.devRef .tc main_arg1) := W4_of_ne m ρ c main_arg1 (by decide)
    _ = W2 m ρ c (Proc.devRef .tc main_arg1) := after_reshape_ne _ _ _ _ _ (by decide)
    _ = W1 m ρ c (Proc.devRef .tc main_arg1) := W2_of_ne m ρ c main_arg1 (by decide)
    _ = W0 m ρ c (Proc.devRef .tc main_arg1) := after_reshape_ne _ _ _ _ _ (by decide)
    _ = m ((c.tc : Thread nD τ).loc main_arg1) := rfl
/-- Argument 2 is as launched at launch 2's entry: nothing before it writes it. -/
theorem W5_arg2 (c : Dev nD) : W5 m ρ c (Proc.devRef .tc main_arg2) = m ((c.tc : Thread nD τ).loc main_arg2) :=
  calc W5 m ρ c (Proc.devRef .tc main_arg2)
    _ = W4 m ρ c (Proc.devRef .tc main_arg2) := after_reshape_ne _ _ _ _ _ (by decide)
    _ = W3 m ρ c (Proc.devRef .tc main_arg2) := W4_of_ne m ρ c main_arg2 (by decide)
    _ = W2 m ρ c (Proc.devRef .tc main_arg2) := after_reshape_ne _ _ _ _ _ (by decide)
    _ = W1 m ρ c (Proc.devRef .tc main_arg2) := W2_of_ne m ρ c main_arg2 (by decide)
    _ = W0 m ρ c (Proc.devRef .tc main_arg2) := after_reshape_ne _ _ _ _ _ (by decide)
    _ = m ((c.tc : Thread nD τ).loc main_arg2) := rfl
/-- Argument 3 is as launched at launch 2's entry: nothing before it writes it. -/
theorem W5_arg3 (c : Dev nD) : W5 m ρ c (Proc.devRef .tc main_arg3) = m ((c.tc : Thread nD τ).loc main_arg3) :=
  calc W5 m ρ c (Proc.devRef .tc main_arg3)
    _ = W4 m ρ c (Proc.devRef .tc main_arg3) := after_reshape_ne _ _ _ _ _ (by decide)
    _ = W3 m ρ c (Proc.devRef .tc main_arg3) := W4_of_ne m ρ c main_arg3 (by decide)
    _ = W2 m ρ c (Proc.devRef .tc main_arg3) := after_reshape_ne _ _ _ _ _ (by decide)
    _ = W1 m ρ c (Proc.devRef .tc main_arg3) := W2_of_ne m ρ c main_arg3 (by decide)
    _ = W0 m ρ c (Proc.devRef .tc main_arg3) := after_reshape_ne _ _ _ _ _ (by decide)
    _ = m ((c.tc : Thread nD τ).loc main_arg3) := rfl
/-- Argument 4 is as launched at launch 2's entry: nothing before it writes it. -/
theorem W5_arg4 (c : Dev nD) : W5 m ρ c (Proc.devRef .tc main_arg4) = m ((c.tc : Thread nD τ).loc main_arg4) :=
  calc W5 m ρ c (Proc.devRef .tc main_arg4)
    _ = W4 m ρ c (Proc.devRef .tc main_arg4) := after_reshape_ne _ _ _ _ _ (by decide)
    _ = W3 m ρ c (Proc.devRef .tc main_arg4) := W4_of_ne m ρ c main_arg4 (by decide)
    _ = W2 m ρ c (Proc.devRef .tc main_arg4) := after_reshape_ne _ _ _ _ _ (by decide)
    _ = W1 m ρ c (Proc.devRef .tc main_arg4) := W2_of_ne m ρ c main_arg4 (by decide)
    _ = W0 m ρ c (Proc.devRef .tc main_arg4) := after_reshape_ne _ _ _ _ _ (by decide)
    _ = m ((c.tc : Thread nD τ).loc main_arg4) := rfl

/-- At launch 2's exit the gate array is `gate` of the pooled array and the four parameter arrays as launched. -/
theorem W6_v5 (c : Dev nD) : W6 m ρ c (Proc.devRef .tc main_v5)
    = gate
    (shapeCast S64x1024
      (P1 (P0 (shapeCast S3136x16384 (m ((c.tc : Thread nD τ).loc main_arg0)) shapeCasts_S64x1024x28x28_S3136x16384))
        (shapeCast S65536x784 (m ((c.tc : Thread nD τ).loc main_arg0)) shapeCasts_S64x1024x28x28_S65536x784))
      shapeCasts_S65536x1_S64x1024)
    (m ((c.tc : Thread nD τ).loc main_arg1)) (m ((c.tc : Thread nD τ).loc main_arg2))
    (m ((c.tc : Thread nD τ).loc main_arg3)) (m ((c.tc : Thread nD τ).loc main_arg4)) := by
  refine (W6_arr m ρ c 5).trans ((arr2 (V5 m ρ) c).trans ?_)
  show gate (W5 m ρ c (Proc.devRef .tc main_v4)) (W5 m ρ c (Proc.devRef .tc main_arg1))
    (W5 m ρ c (Proc.devRef .tc main_arg2)) (W5 m ρ c (Proc.devRef .tc main_arg3))
    (W5 m ρ c (Proc.devRef .tc main_arg4)) = _
  rw [W5_v4, W5_arg1, W5_arg2, W5_arg3, W5_arg4]

/-! ## Launch 3: its entry and its exit -/

/-- At launch 3's entry the gate column is the gate array reshaped. -/
theorem W7_v6 (c : Dev nD) : W7 m ρ c (Proc.devRef .tc main_v6)
    = shapeCast S65536x1
    (gate
    (shapeCast S64x1024
      (P1 (P0 (shapeCast S3136x16384 (m ((c.tc : Thread nD τ).loc main_arg0)) shapeCasts_S64x1024x28x28_S3136x16384))
        (shapeCast S65536x784 (m ((c.tc : Thread nD τ).loc main_arg0)) shapeCasts_S64x1024x28x28_S65536x784))
      shapeCasts_S65536x1_S64x1024)
    (m ((c.tc : Thread nD τ).loc main_arg1)) (m ((c.tc : Thread nD τ).loc main_arg2))
    (m ((c.tc : Thread nD τ).loc main_arg3)) (m ((c.tc : Thread nD τ).loc main_arg4)))
    shapeCasts_S64x1024_S65536x1 := by
  have e : W7 m ρ c (Proc.devRef .tc main_v6)
      = shapeCast S65536x1 (W6 m ρ c (Proc.devRef .tc main_v5)) shapeCasts_S64x1024_S65536x1 := by
    show StableHlo.after hostOps3 _ (Proc.devRef .tc main_v6) = _
    after_results
    rfl
  rw [e, W6_v5]

/-- The row view reaches launch 3 as launch 1 left it: launch 2 and the reshapes between do not touch it. -/
theorem W7_v2 (c : Dev nD) : W7 m ρ c (Proc.devRef .tc main_v2)
    = shapeCast S65536x784 (m ((c.tc : Thread nD τ).loc main_arg0)) shapeCasts_S64x1024x28x28_S65536x784 :=
  calc W7 m ρ c (Proc.devRef .tc main_v2)
    _ = W6 m ρ c (Proc.devRef .tc main_v2) := after_reshape_ne _ _ _ _ _ (by decide)
    _ = W5 m ρ c (Proc.devRef .tc main_v2) := W6_of_ne m ρ c main_v2 (by decide)
    _ = W4 m ρ c (Proc.devRef .tc main_v2) := after_reshape_ne _ _ _ _ _ (by decide)
    _ = _ := W4_v2 m ρ c

/-- At launch 3's exit the product array is `P3` of the row view and the gate column. -/
theorem W8_v7 (c : Dev nD) : W8 m ρ c (Proc.devRef .tc main_v7)
    = P3 (shapeCast S65536x784 (m ((c.tc : Thread nD τ).loc main_arg0)) shapeCasts_S64x1024x28x28_S65536x784)
        (shapeCast S65536x1
    (gate
    (shapeCast S64x1024
      (P1 (P0 (shapeCast S3136x16384 (m ((c.tc : Thread nD τ).loc main_arg0)) shapeCasts_S64x1024x28x28_S3136x16384))
        (shapeCast S65536x784 (m ((c.tc : Thread nD τ).loc main_arg0)) shapeCasts_S64x1024x28x28_S65536x784))
      shapeCasts_S65536x1_S64x1024)
    (m ((c.tc : Thread nD τ).loc main_arg1)) (m ((c.tc : Thread nD τ).loc main_arg2))
    (m ((c.tc : Thread nD τ).loc main_arg3)) (m ((c.tc : Thread nD τ).loc main_arg4)))
    shapeCasts_S64x1024_S65536x1) :=
  (W8_arr m ρ c 2).trans ((arr3 (V7 m ρ) c).trans (congrArg₂ P3 (W7_v2 m ρ c) (W7_v6 m ρ c)))

/-! ## The result -/

/-- The result array at the last boundary is `kout` of the arguments as launched. -/
theorem W9_v8 (c : Dev nD) : W9 m ρ c (Proc.devRef .tc main_v8)
    = kout (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  have e : W9 m ρ c (Proc.devRef .tc main_v8)
      = shapeCast S64x1024x28x28 (W8 m ρ c (Proc.devRef .tc main_v7)) shapeCasts_S65536x784_S64x1024x28x28 := by
    show StableHlo.after hostOps4 _ (Proc.devRef .tc main_v8) = _
    after_results
    rfl
  rw [e, W8_v7]
  rfl

/-- The kernel program runs, ends with its result at `kout` of its arguments, and leaves them unchanged. -/
theorem run : θ_run defs (onTc (τ := τ) (main (F := Ideal))) ⟨m, fun _ => 0, ρ⟩ (fun r => ∀ c : Dev nD,
      r.2.mem ((c.tc : Thread nD τ).loc main_v8)
        = kout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W9_v8 m ρ c), (h c).2⟩) (run_v8 m ρ)

end Cert.KernelIdeal.Val

end
-- ==== Proof.Bridge.lean ====
/-
  The kernel program's composition of launches and reshapes is the specification: the largest partial is the largest
  magnitude of `x` (every entry of `x` lies in exactly one block of the lane view, and every tile repeats its block's
  maximum); row `1024 b + c` of the [65536, 784] view is plane `(b, c)`, position `28 h + w` in it; and the
  reshapes between the pooled column, the [64, 1024] gate and the gate column are the same re-indexing.
-/
import proofs.«422627_j82746839925439_3_alg».proof.Proof.KVal
import proofs.«422627_j82746839925439_3_alg».proof.Proof.SpecLemmas
import Idealize.ShloMosaic.Lib.Pipeline.Value
import Idealize.ShloMosaic.Lib.ValueIdx

noncomputable section

set_option maxRecDepth 16384

namespace Cert.KernelIdeal.Val

open Cert.KernelIdeal Cert.SE Idealize.ShloMosaic Idealize.ShloMosaic.ValueIdx

/-! ## The reshapes read at coordinates

Each reshape keeps the row-major position: `((b * 1024 + c) * 28 + h) * 28 + w` in the rank-4 array is
`(1024 b + c) * 784 + (28 h + w)` in the [65536, 784] view, and `b * 1024 + c` in a [64, 1024] array is
`(1024 b + c) * 1 + 0` in the [65536, 1] column. -/

/-- The [65536, 784] view read at row `1024 b + c`, column `28 h + w`, is the array at `(b, c, h, w)`. -/
theorem cast_rows_apply {α : Type} (x : S64x1024x28x28.Idx → α) (hc : S64x1024x28x28.ShapeCasts S65536x784)
    (b : Fin 64) (c : Fin 1024) (h : Fin 28) (w : Fin 28) (r : Fin 65536) (k : Fin 784)
    (hr : r.val = 1024 * b.val + c.val) (hk : k.val = 28 * h.val + w.val) :
    shapeCast S65536x784 x hc (ix2 r k) = x (ix4 b c h w) :=
  shapeCast_apply x hc _ _ (by
    rw [Shape.rowMajor_val_four, Shape.rowMajor_val_two]
    show ((b.val * 1024 + c.val) * 28 + h.val) * 28 + w.val = r.val * 784 + k.val
    omega)

/-- The [65536, 784] array reshaped back to rank 4 reads, at `(b, c, h, w)`, row `1024 b + c`, column `28 h + w`. -/
theorem cast_back_apply {α : Type} (y : S65536x784.Idx → α) (hc : S65536x784.ShapeCasts S64x1024x28x28)
    (b : Fin 64) (c : Fin 1024) (h : Fin 28) (w : Fin 28) (r : Fin 65536) (k : Fin 784)
    (hr : r.val = 1024 * b.val + c.val) (hk : k.val = 28 * h.val + w.val) :
    shapeCast S64x1024x28x28 y hc (ix4 b c h w) = y (ix2 r k) :=
  shapeCast_apply y hc _ _ (by
    rw [Shape.rowMajor_val_four, Shape.rowMajor_val_two]
    show r.val * 784 + k.val = ((b.val * 1024 + c.val) * 28 + h.val) * 28 + w.val
    omega)

/-- The [65536, 1] column reshaped to [64, 1024] reads, at `(b, c)`, the column's row `1024 b + c`. -/
theorem cast_col_apply {α : Type} (p : S65536x1.Idx → α) (hc : S65536x1.ShapeCasts S64x1024)
    (b : Fin 64) (c : Fin 1024) (r : Fin 65536) (z : Fin 1) (hr : r.val = 1024 * b.val + c.val) :
    shapeCast S64x1024 p hc (ix2 b c) = p (ix2 r z) :=
  shapeCast_apply p hc _ _ (by
    have hz : z.val < 1 := z.isLt
    rw [Shape.rowMajor_val_two, Shape.rowMajor_val_two]
    show r.val * 1 + z.val = b.val * 1024 + c.val
    omega)

/-- The [64, 1024] array reshaped to the [65536, 1] column reads, at row `1024 b + c`, the array at `(b, c)`. -/
theorem cast_gate_apply {α : Type} (g : S64x1024.Idx → α) (hc : S64x1024.ShapeCasts S65536x1)
    (b : Fin 64) (c : Fin 1024) (r : Fin 65536) (z : Fin 1) (hr : r.val = 1024 * b.val + c.val) :
    shapeCast S65536x1 g hc (ix2 r z) = g (ix2 b c) :=
  shapeCast_apply g hc _ _ (by
    have hz : z.val < 1 := z.isLt
    rw [Shape.rowMajor_val_two, Shape.rowMajor_val_two]
    show b.val * 1024 + c.val = r.val * 1 + z.val
    omega)

/-! ## The largest partial is the largest magnitude -/

/-- Row `r` of block `blk` is a row of the lane view. -/
theorem blk_row_lt (blk : Fin 14) (r : Fin 224) : blk.val * 224 + r.val < 3136 := by
  have := blk.isLt; have := r.isLt; omega

/-- A row's largest magnitude is at most its block's: row `a` is row `r` of block `blk` when `a = 224 blk + r`. -/
theorem row_le_bmax (xl : S3136x16384.Idx → EReal) (blk : Fin 14) (r : Fin 224) (a : Fin 3136)
    (ha : a.val = blk.val * 224 + r.val) :
    ((Finset.univ : Finset (Fin 16384)).sup fun k => ab (xl (ix2 a k))) ≤ bmax xl blk := by
  obtain rfl : a = ⟨blk.val * 224 + r.val, blk_row_lt blk r⟩ := Fin.ext ha
  exact Finset.le_sup
    (f := fun r : Fin 224 => (Finset.univ : Finset (Fin 16384)).sup fun k =>
      ab (xl (ix2 (⟨blk.val * 224 + r.val, blk_row_lt blk r⟩ : Fin 3136) k)))
    (Finset.mem_univ r)

/-- A block's largest magnitude is one of the partials: the first entry of the block's tile, row `8 blk`. -/
theorem bmax_le_psup (xl : S3136x16384.Idx → EReal) (blk : Fin 14) : bmax xl blk ≤ psup (P0 xl) := by
  have hb : blk.val < 14 := blk.isLt
  have h8 : blk.val * 8 < 112 := by omega
  have e : P0 xl (ix2 (⟨blk.val * 8, h8⟩ : Fin 112) (0 : Fin 128)) = bmax xl blk :=
    congrArg (bmax xl) (Fin.ext (by
      show blk.val * 8 / 8 = blk.val
      omega))
  rw [← e]
  exact (Finset.le_sup (f := fun t : Fin 128 => P0 xl (ix2 (⟨blk.val * 8, h8⟩ : Fin 112) t)) (Finset.mem_univ (0 : Fin 128))).trans
    (Finset.le_sup (f := fun a : Fin 112 => (Finset.univ : Finset (Fin 128)).sup fun t => P0 xl (ix2 a t))
      (Finset.mem_univ (⟨blk.val * 8, h8⟩ : Fin 112)))

/-- The largest partial is the largest magnitude of the lane view: each partial is a block's maximum, at most the
    whole view's; and each row of the view lies in the block `row / 224`, whose maximum is a partial. -/
theorem psup_P0 (xl : S3136x16384.Idx → EReal) : psup (P0 xl) = amax xl := by
  rw [amax_ix2 xl]
  apply le_antisymm
  · unfold psup
    refine Finset.sup_le fun a _ => Finset.sup_le fun t _ => ?_
    show bmax xl _ ≤ _
    unfold bmax
    refine Finset.sup_le fun r _ => ?_
    exact Finset.le_sup
      (f := fun a : Fin 3136 => (Finset.univ : Finset (Fin 16384)).sup fun k => ab (xl (ix2 a k))) (Finset.mem_univ _)
  · refine Finset.sup_le fun a _ => ?_
    have ha : a.val < 3136 := a.isLt
    exact (row_le_bmax xl ⟨a.val / 224, by omega⟩ ⟨a.val % 224, by omega⟩ a (by
      show a.val = a.val / 224 * 224 + a.val % 224
      omega)).trans (bmax_le_psup xl _)

/-- The lane view is `x` re-indexed along a bijection, so the largest partial is the largest magnitude of `x`. -/
theorem psup_P0_cast (x : S64x1024x28x28.Idx → EReal) (hc : S64x1024x28x28.ShapeCasts S3136x16384) :
    psup (P0 (shapeCast S3136x16384 x hc)) = amax x := by
  rw [psup_P0]
  exact amax_comp_surj x (Shape.reshapeEquiv hc) (Shape.reshapeEquiv hc).surjective

/-! ## The pooled column is the pooled mean -/

/-- The pooled column reshaped to [64, 1024] is, at `(b, c)`, the mean over plane `(b, c)`: the row's 784 entries are
    the plane's 28 x 28 positions, `k = 28 h + w`. -/
theorem pooled_cast (P : S112x128.Idx → EReal) (x : S64x1024x28x28.Idx → EReal)
    (hX : S64x1024x28x28.ShapeCasts S65536x784) (hP : S65536x1.ShapeCasts S64x1024) (b : Fin 64) (c : Fin 1024) :
    shapeCast S64x1024 (P1 P (shapeCast S65536x784 x hX)) hP (ix2 b c) = mean4 (qs (psup P)) x (ix2 b c) := by
  have hb : b.val < 64 := b.isLt
  have hc : c.val < 1024 := c.isLt
  have hr : 1024 * b.val + c.val < 65536 := by omega
  refine (cast_col_apply _ hP b c ⟨1024 * b.val + c.val, hr⟩ (0 : Fin 1) rfl).trans ?_
  show Ideal.div (∑ k : Fin 784, fq (qs (psup P))
      (shapeCast S65536x784 x hX (ix2 (⟨1024 * b.val + c.val, _⟩ : Fin 65536) k))) _
    = Ideal.div (∑ hw : Fin 28 × Fin 28, fq (qs (psup P)) (x (ix4 b c hw.1 hw.2))) _
  refine congrArg (fun t => Ideal.div t _) ?_
  refine (Fintype.sum_equiv (finProdFinEquiv : Fin 28 × Fin 28 ≃ Fin 784) _ _ fun hw => ?_).symm
  refine congrArg (fq _) (cast_rows_apply x hX b c hw.1 hw.2 _ _ rfl ?_).symm
  show hw.2.val + 28 * hw.1.val = 28 * hw.1.val + hw.2.val
  omega

/-! ## The assembly -/

theorem kout_eq_OUT (x : S64x1024x28x28.Idx → EReal) (W1 : S256x1024.Idx → EReal) (b1 : S256.Idx → EReal)
    (W2 : S1024x256.Idx → EReal) (b2 : S1024.Idx → EReal) : kout x W1 b1 W2 b2 = OUT x W1 b1 W2 b2 := by
  -- the pooled mean the gate is applied to is the same on both sides
  have hse : shapeCast S64x1024
      (P1 (P0 (shapeCast S3136x16384 x Gen.shapeCasts_S64x1024x28x28_S3136x16384))
        (shapeCast S65536x784 x Gen.shapeCasts_S64x1024x28x28_S65536x784))
      Gen.shapeCasts_S65536x1_S64x1024 = mean4 (qs (amax x)) x := by
    funext j
    obtain ⟨b, c, rfl⟩ : ∃ b c, j = ix2 b c := ⟨_, _, eq_ix2 j⟩
    rw [pooled_cast, psup_P0_cast]
  funext i
  obtain ⟨b, c, h, w, rfl⟩ : ∃ b c h w, i = ix4 b c h w := ⟨_, _, _, _, eq_ix4 i⟩
  have hb : b.val < 64 := b.isLt
  have hc : c.val < 1024 := c.isLt
  have hh : h.val < 28 := h.isLt
  have hw : w.val < 28 := w.isLt
  have hr : 1024 * b.val + c.val < 65536 := by omega
  have hk : 28 * h.val + w.val < 784 := by omega
  unfold kout OUT
  rw [hse]
  refine (cast_back_apply _ _ b c h w ⟨1024 * b.val + c.val, hr⟩ ⟨28 * h.val + w.val, hk⟩ rfl rfl).trans ?_
  show shapeCast S65536x784 x _ (ix2 (⟨1024 * b.val + c.val, hr⟩ : Fin 65536) (⟨28 * h.val + w.val, hk⟩ : Fin 784))
      * shapeCast S65536x1 (gate (mean4 (qs (amax x)) x) W1 b1 W2 b2) _
          (ix2 (⟨1024 * b.val + c.val, _⟩ : Fin 65536) (0 : Fin 1))
    = x (ix4 b c h w) * gate (mean4 (qs (amax x)) x) W1 b1 W2 b2 (ix2 b c)
  rw [cast_rows_apply x _ b c h w _ _ rfl rfl, cast_gate_apply _ _ b c _ _ rfl]

end Cert.KernelIdeal.Val

end
-- ==== Proof.RefMean.lean ====
/-
  The reference's first stretch, up to the pooled mean: for real entries of `x` its `x + (q - x)` is the quantized `q`, its maximum over all four axes the largest magnitude, and its sum over the two position axes the sum over the 28 x 28 positions.
-/
import proofs.«422627_j82746839925439_3_alg».proof.Proof.Gen.ReferenceIdeal.Read
import proofs.«422627_j82746839925439_3_alg».proof.Proof.SpecLemmas
import Idealize.ShloMosaic.Lib.Pipeline.Value
import Idealize.ShloMosaic.Lib.ValueIdx
import Idealize.ShloMosaic.PureOps.Ideal.Laws

noncomputable section

set_option maxRecDepth 16384

namespace Cert.ReferenceIdeal.RefValue

open Cert.ReferenceIdeal Cert.ReferenceIdeal.Read Cert.SE Idealize.ShloMosaic Idealize.ShloMosaic.ValueIdx

/-- Dropping the two position coordinates of a rank-4 index keeps its batch and channel coordinates. -/
theorem drop_plane_val0 (h : S64x1024x28x28.ReducesTo [2, 3] S64x1024) (i : S64x1024x28x28.Idx) :
    (h.drop i 0 : Nat) = i 0 := h.drop_apply_val_of_eq i 0 0

theorem drop_plane_val1 (h : S64x1024x28x28.ReducesTo [2, 3] S64x1024) (i : S64x1024x28x28.Idx) :
    (h.drop i 1 : Nat) = i 1 := h.drop_apply_val_of_eq i 1 1

/-- A sum over the two position axes, from an initial value: at plane `(b, c)` the initial value plus the sum over
    the 28 x 28 positions of that plane. The indices that drop to `(b, c)` are exactly `(b, c, h, w)`. -/
theorem hostReduceAdd_plane (h : S64x1024x28x28.ReducesTo [2, 3] S64x1024) (g : S64x1024x28x28.Idx → EReal)
    (init : EReal) (j : S64x1024.Idx) :
    Ideal.hostReduceAdd h g init j = init + ∑ hw : Fin 28 × Fin 28, g (ix4 (j 0) (j 1) hw.1 hw.2) := by
  unfold Ideal.hostReduceAdd
  congr 1
  have hback : ∀ i : S64x1024x28x28.Idx, h.drop i = j → ix4 (j 0) (j 1) (i 2) (i 3) = i := by
    intro i hi
    subst hi
    funext e
    match e with
    | ⟨0, _⟩ => exact Fin.ext (drop_plane_val0 h i)
    | ⟨1, _⟩ => exact Fin.ext (drop_plane_val1 h i)
    | ⟨2, _⟩ => rfl
    | ⟨3, _⟩ => rfl
  refine Finset.sum_nbij' (fun i => (i 2, i 3)) (fun hw => ix4 (j 0) (j 1) hw.1 hw.2) ?_ ?_ ?_ ?_ ?_
  · intro i _; exact Finset.mem_univ _
  · intro hw _
    refine Finset.mem_filter.2 ⟨Finset.mem_univ _, ?_⟩
    funext b
    match b with
    | ⟨0, _⟩ => exact Fin.ext (drop_plane_val0 h _)
    | ⟨1, _⟩ => exact Fin.ext (drop_plane_val1 h _)
  · intro i hi; exact hback i (Finset.mem_filter.1 hi).2
  · intro hw _; rfl
  · intro i hi; exact congrArg g (hback i (Finset.mem_filter.1 hi).2).symm

/-- The reference's scale: the maximum over all four axes of the magnitudes, from `-inf`, is the largest magnitude,
    and the two stages after it are the specification's scale of it. -/
theorem v1_eq (x0 : S64x1024x28x28.Idx → EReal) (k : S_.Idx) :
    val_main_v1 (F := Ideal) x0 k = amax x0 := by
  unfold val_main_v1
  rw [Host.reduce_eq_fold]
  rw [Finset.filter_true_of_mem fun i _ => funext fun b => b.elim0]
  exact fold_max_eq_sup _ _

theorem v3_eq (x0 : S64x1024x28x28.Idx → EReal) (k : S_.Idx) :
    val_main_v3 (F := Ideal) x0 k = qs (amax x0) := by
  rw [val_main_v3_apply, val_main_v2_apply, v1_eq]
  rfl

/-- The reference's quantized entry is the specification's. -/
theorem v9_eq (x0 : S64x1024x28x28.Idx → EReal) (i : S64x1024x28x28.Idx) :
    val_main_v9 (F := Ideal) x0 i = fq (qs (amax x0)) (x0 i) := by
  rw [val_main_v9_apply, val_main_v7_apply, val_main_v8_apply, val_main_call1_v2_apply, val_main_v6_apply,
    val_main_v5_apply, val_main_v4_apply, v3_eq, val_main_call1_v4_apply, val_main_call1_v1_apply]
  rfl

/-- For a real entry `x + (q - x)` is `q`. -/
theorem v11_eq (x0 : S64x1024x28x28.Idx → EReal) (hx : ∀ i, IsReal (x0 i)) (i : S64x1024x28x28.Idx) :
    val_main_v11 (F := Ideal) x0 i = fq (qs (amax x0)) (x0 i) := by
  rw [val_main_v11_apply, val_main_v10_apply, v9_eq]
  exact add_sub_cancel_real _ _ (hx i)

/-- The reference's pooled mean is the specification's, when every entry of `x` is a real number. -/
theorem v14_eq (x0 : S64x1024x28x28.Idx → EReal) (hx : ∀ i, IsReal (x0 i)) :
    val_main_v14 (F := Ideal) x0 = mean4 (qs (amax x0)) x0 := by
  funext j
  rw [val_main_v14_apply, val_main_v13_apply]
  have h12 : val_main_v12 (F := Ideal) x0 j
      = ∑ hw : Fin 28 × Fin 28, fq (qs (amax x0)) (x0 (ix4 (j 0) (j 1) hw.1 hw.2)) := by
    unfold val_main_v12 Host.reduceAdd
    rw [Ideal.hostReduceAdd_def, hostReduceAdd_plane]
    rw [val_main_cst_4_apply, Ideal.ofBits_def, Ideal.ofBits_zero_f32, zero_add]
    exact Finset.sum_congr rfl fun hw _ => v11_eq x0 hx _
  rw [h12]
  rfl

end Cert.ReferenceIdeal.RefValue

end
-- ==== Proof.RefGate.lean ====
/-
  The reference's second stretch, from the pooled mean to the gate: two quantizations of the mean, the two quantized linear layers, the relu and the hard sigmoid, each `t + (q - t)` collapsing to `q` because its `t` is a real number.
-/
import proofs.«422627_j82746839925439_3_alg».proof.Proof.Gen.ReferenceIdeal.Read
import proofs.«422627_j82746839925439_3_alg».proof.Proof.SpecLemmas
import Idealize.ShloMosaic.Lib.Pipeline.Value
import Idealize.ShloMosaic.Lib.ValueIdx
import Idealize.ShloMosaic.PureOps.Ideal.Laws
import Idealize.ShloMosaic.PureOps.Reduce

noncomputable section

set_option maxRecDepth 16384

namespace Cert.ReferenceIdeal.RefValue

open Cert.ReferenceIdeal Cert.ReferenceIdeal.Read Cert.SE Idealize.ShloMosaic Idealize.ShloMosaic.ValueIdx

/-! ## The quantization pattern, once -/

/-- The maximum of the magnitudes of all entries of a tensor, folded from `-inf` over every axis down to a scalar,
    is the specification's largest magnitude: every index drops to the scalar's one index, so the fold runs over
    all of them, and a maximum folded from `-inf` is the supremum. -/
theorem reduce_amax {S : Shape} {axes : List (Fin S.rank)} (t : S.Idx → EReal)
    (h : S.ReducesTo axes S_) (hu : 0 < S_.numel) (j : S_.Idx) :
    Host.reduce (FloatOps.maximumf (F := Ideal) (φ := .f32)) (Host.absf (F := Ideal) (φ := .f32) t)
      (constant (F := Ideal) S_ .f32 0xFF800000#32) h hu j = amax t := by
  rw [Host.reduce_eq_fold]
  have hall : (Finset.univ.filter fun i => h.drop i = j) = Finset.univ :=
    Finset.filter_true_of_mem fun i _ => funext fun a => a.elim0
  rw [hall]
  exact fold_max_eq_sup Finset.univ fun i => ab (t i)

/-- One entry of a tensor quantized the way the reference writes it, the entry plus (the quantized entry minus the
    entry), with the scale `max (M / 127) 1e-8` of the tensor's largest magnitude `M`: for a real entry this is the
    specification's quantized entry. Generic in the index type, so it serves all five quantizations. -/
theorem quant_entry {ι : Type} [Fintype ι] (t : ι → EReal) (i : ι) (ht : IsReal (t i)) :
    t i + (min (Ideal.ofBits .f32 0x42FE0000#32)
        (max (Ideal.ofBits .f32 0xC2FE0000#32) (Ideal.liftRound Ideal.roundHalfEven (Ideal.div (t i)
          (max (Ideal.div (amax t) (Ideal.ofBits .f32 0x42FE0000#32)) (Ideal.ofBits .f32 0x322BCC77#32)))))
        * (max (Ideal.div (amax t) (Ideal.ofBits .f32 0x42FE0000#32)) (Ideal.ofBits .f32 0x322BCC77#32)) - t i)
      = fqT t i :=
  add_sub_cancel_real _ _ ht

/-! ## The five quantizations

Each is the pattern above read off its own stages: the largest magnitude by `reduce_amax`, then the entry by
`quant_entry`. -/

/-- Stage %16: the largest magnitude of the pooled mean. -/
theorem v16_eq (x0 : S64x1024x28x28.Idx → EReal) (j : S_.Idx) :
    val_main_v16 (F := Ideal) x0 j = amax (val_main_v14 (F := Ideal) x0) := by
  unfold val_main_v16 val_main_v15 val_main_cst_6
  exact reduce_amax _ _ _ j

/-- Stages %15 to %26: the pooled mean quantized at its own scale. -/
theorem v26_eq (x0 : S64x1024x28x28.Idx → EReal) (h14 : ∀ i, IsReal (val_main_v14 (F := Ideal) x0 i)) :
    val_main_v26 (F := Ideal) x0 = fqT (val_main_v14 (F := Ideal) x0) := by
  funext i
  rw [val_main_v26_apply, val_main_v25_apply, val_main_v24_apply, val_main_v22_apply, val_main_call3_v4_apply,
    val_main_call3_v3_apply, val_main_cst_10_apply, val_main_call3_v2_apply, val_main_call3_v1_apply,
    val_main_call3_v0_apply, val_main_cst_9_apply, val_main_v21_apply, val_main_v20_apply, val_main_v19_apply,
    val_main_v23_apply, val_main_v18_apply, val_main_v17_apply, val_main_cst_7_apply, val_main_cst_8_apply,
    v16_eq]
  simp only [Ideal.ofBits_def, Ideal.addf_def, Ideal.subf_def, Ideal.mulf_def, Ideal.minimumf_def,
    Ideal.maximumf_def, Ideal.hostDivf_def, Ideal.hostUnary_roundeven_def]
  exact quant_entry _ i (h14 i)

/-- Stage %28: the largest magnitude of the once-quantized mean. -/
theorem v28_eq (x0 : S64x1024x28x28.Idx → EReal) (j : S_.Idx) :
    val_main_v28 (F := Ideal) x0 j = amax (val_main_v26 (F := Ideal) x0) := by
  unfold val_main_v28 val_main_v27 val_main_cst_11
  exact reduce_amax _ _ _ j

/-- Stages %27 to %38: the once-quantized mean quantized again, at the scale of its own largest magnitude. -/
theorem v38_eq (x0 : S64x1024x28x28.Idx → EReal) (h26 : ∀ i, IsReal (val_main_v26 (F := Ideal) x0 i)) :
    val_main_v38 (F := Ideal) x0 = fqT (val_main_v26 (F := Ideal) x0) := by
  funext i
  rw [val_main_v38_apply, val_main_v37_apply, val_main_v36_apply, val_main_v34_apply, val_main_call5_v4_apply,
    val_main_call5_v3_apply, val_main_cst_15_apply, val_main_call5_v2_apply, val_main_call5_v1_apply,
    val_main_call5_v0_apply, val_main_cst_14_apply, val_main_v33_apply, val_main_v32_apply, val_main_v31_apply,
    val_main_v35_apply, val_main_v30_apply, val_main_v29_apply, val_main_cst_12_apply, val_main_cst_13_apply,
    v28_eq]
  simp only [Ideal.ofBits_def, Ideal.addf_def, Ideal.subf_def, Ideal.mulf_def, Ideal.minimumf_def,
    Ideal.maximumf_def, Ideal.hostDivf_def, Ideal.hostUnary_roundeven_def]
  exact quant_entry _ i (h26 i)

/-- Stages %15 to %38: the pooled mean quantized twice; the first quantization's entries are real, which is what
    the second one needs. -/
theorem v38_twice (x0 : S64x1024x28x28.Idx → EReal) (h14 : ∀ i, IsReal (val_main_v14 (F := Ideal) x0 i)) :
    val_main_v38 (F := Ideal) x0 = fqT (fqT (val_main_v14 (F := Ideal) x0)) := by
  have h26 : ∀ i, IsReal (val_main_v26 (F := Ideal) x0 i) := fun i => by
    rw [v26_eq x0 h14]; exact fqT_real _ h14 i
  rw [v38_eq x0 h26, v26_eq x0 h14]

/-- Stage %40: the largest magnitude of the first layer's weights. -/
theorem v40_eq (x1 : S256x1024.Idx → EReal) (j : S_.Idx) :
    val_main_v40 (F := Ideal) x1 j = amax x1 := by
  unfold val_main_v40 val_main_v39 val_main_cst_16
  exact reduce_amax _ _ _ j

/-- Stages %39 to %50: the first layer's weights quantized at their own scale. -/
theorem v50_eq (x1 : S256x1024.Idx → EReal) (h1 : ∀ i, IsReal (x1 i)) :
    val_main_v50 (F := Ideal) x1 = fqT x1 := by
  funext i
  rw [val_main_v50_apply, val_main_v49_apply, val_main_v48_apply, val_main_v46_apply, val_main_call7_v4_apply,
    val_main_call7_v3_apply, val_main_cst_20_apply, val_main_call7_v2_apply, val_main_call7_v1_apply,
    val_main_call7_v0_apply, val_main_cst_19_apply, val_main_v45_apply, val_main_v44_apply, val_main_v43_apply,
    val_main_v47_apply, val_main_v42_apply, val_main_v41_apply, val_main_cst_17_apply, val_main_cst_18_apply,
    v40_eq]
  simp only [Ideal.ofBits_def, Ideal.addf_def, Ideal.subf_def, Ideal.mulf_def, Ideal.minimumf_def,
    Ideal.maximumf_def, Ideal.hostDivf_def, Ideal.hostUnary_roundeven_def]
  exact quant_entry _ i (h1 i)

/-- Stage %58: the largest magnitude of the hidden activations. -/
theorem v58_eq (x0 : S64x1024x28x28.Idx → EReal) (x1 : S256x1024.Idx → EReal) (x2 : S256.Idx → EReal) (j : S_.Idx) :
    val_main_v58 (F := Ideal) x0 x1 x2 j = amax (val_main_v56 (F := Ideal) x0 x1 x2) := by
  unfold val_main_v58 val_main_v57 val_main_cst_21
  exact reduce_amax _ _ _ j

/-- Stages %57 to %68: the hidden activations quantized at their own scale. -/
theorem v68_eq (x0 : S64x1024x28x28.Idx → EReal) (x1 : S256x1024.Idx → EReal) (x2 : S256.Idx → EReal)
    (h56 : ∀ i, IsReal (val_main_v56 (F := Ideal) x0 x1 x2 i)) :
    val_main_v68 (F := Ideal) x0 x1 x2 = fqT (val_main_v56 (F := Ideal) x0 x1 x2) := by
  funext i
  rw [val_main_v68_apply, val_main_v67_apply, val_main_v66_apply, val_main_v64_apply, val_main_call10_v4_apply,
    val_main_call10_v3_apply, val_main_cst_25_apply, val_main_call10_v2_apply, val_main_call10_v1_apply,
    val_main_call10_v0_apply, val_main_cst_24_apply, val_main_v63_apply, val_main_v62_apply, val_main_v61_apply,
    val_main_v65_apply, val_main_v60_apply, val_main_v59_apply, val_main_cst_22_apply, val_main_cst_23_apply,
    v58_eq]
  simp only [Ideal.ofBits_def, Ideal.addf_def, Ideal.subf_def, Ideal.mulf_def, Ideal.minimumf_def,
    Ideal.maximumf_def, Ideal.hostDivf_def, Ideal.hostUnary_roundeven_def]
  exact quant_entry _ i (h56 i)

/-- Stage %70: the largest magnitude of the second layer's weights. -/
theorem v70_eq (x3 : S1024x256.Idx → EReal) (j : S_.Idx) :
    val_main_v70 (F := Ideal) x3 j = amax x3 := by
  unfold val_main_v70 val_main_v69 val_main_cst_26
  exact reduce_amax _ _ _ j

/-- Stages %69 to %80: the second layer's weights quantized at their own scale. -/
theorem v80_eq (x3 : S1024x256.Idx → EReal) (h3 : ∀ i, IsReal (x3 i)) :
    val_main_v80 (F := Ideal) x3 = fqT x3 := by
  funext i
  rw [val_main_v80_apply, val_main_v79_apply, val_main_v78_apply, val_main_v76_apply, val_main_call12_v4_apply,
    val_main_call12_v3_apply, val_main_cst_30_apply, val_main_call12_v2_apply, val_main_call12_v1_apply,
    val_main_call12_v0_apply, val_main_cst_29_apply, val_main_v75_apply, val_main_v74_apply, val_main_v73_apply,
    val_main_v77_apply, val_main_v72_apply, val_main_v71_apply, val_main_cst_27_apply, val_main_cst_28_apply,
    v70_eq]
  simp only [Ideal.ofBits_def, Ideal.addf_def, Ideal.subf_def, Ideal.mulf_def, Ideal.minimumf_def,
    Ideal.maximumf_def, Ideal.hostDivf_def, Ideal.hostUnary_roundeven_def]
  exact quant_entry _ i (h3 i)

/-! ## The two linear layers -/

/-- The first product's left operand is read at row `j 0`, column `k`. -/
theorem lidx52 (j : S64x256.Idx) (k : Fin 1024) : lidx_main_v52 j k = ix2 (j 0) k :=
  funext fun a => match a with | ⟨0, _⟩ => rfl | ⟨1, _⟩ => rfl

/-- The first product's right operand is the transposed weights, so it reads the weights at row `j 1`, column `k`. -/
theorem ridx52 (j : S64x256.Idx) (k : Fin 1024) : idx_main_v51 (ridx_main_v52 j k) = ix2 (j 1) k :=
  funext fun a => match a with | ⟨0, _⟩ => rfl | ⟨1, _⟩ => rfl

/-- The first bias is broadcast along the rows: entry `j` reads it at `j 1`. -/
theorem bidx54 (j : S64x256.Idx) : idx_main_v53 (idx_main_v54 j) = ix1 (j 1) :=
  funext fun a => match a with | ⟨0, _⟩ => rfl

/-- The second product's left operand is read at row `j 0`, column `k`. -/
theorem lidx82 (j : S64x1024.Idx) (k : Fin 256) : lidx_main_v82 j k = ix2 (j 0) k :=
  funext fun a => match a with | ⟨0, _⟩ => rfl | ⟨1, _⟩ => rfl

/-- The second product's right operand is the transposed weights: the weights at row `j 1`, column `k`. -/
theorem ridx82 (j : S64x1024.Idx) (k : Fin 256) : idx_main_v81 (ridx_main_v82 j k) = ix2 (j 1) k :=
  funext fun a => match a with | ⟨0, _⟩ => rfl | ⟨1, _⟩ => rfl

/-- The second bias is broadcast along the rows: entry `j` reads it at `j 1`. -/
theorem bidx84 (j : S64x1024.Idx) : idx_main_v83 (idx_main_v84 j) = ix1 (j 1) :=
  funext fun a => match a with | ⟨0, _⟩ => rfl

/-- Stages %15 to %56: the hidden activations are the specification's first layer of the pooled mean: the product
    of the twice-quantized mean with the transposed quantized weights, plus the bias, under the relu. -/
theorem v56_eq (x0 : S64x1024x28x28.Idx → EReal) (x1 : S256x1024.Idx → EReal) (x2 : S256.Idx → EReal)
    (h14 : ∀ i, IsReal (val_main_v14 (F := Ideal) x0 i)) (h1 : ∀ i, IsReal (x1 i)) :
    val_main_v56 (F := Ideal) x0 x1 x2 = fc1 (val_main_v14 (F := Ideal) x0) x1 x2 := by
  funext j
  rw [val_main_v56_apply, val_main_v55_apply, val_main_v52_apply, val_main_v54_apply, val_main_v53_apply,
    val_main_call8_v0_apply, val_main_call8_cst_apply, v38_twice x0 h14, bidx54]
  have hs : ∀ k : Fin 1024,
      fqT (fqT (val_main_v14 (F := Ideal) x0)) (lidx_main_v52 j k) * val_main_v51 (F := Ideal) x1 (ridx_main_v52 j k)
        = fqT (fqT (val_main_v14 (F := Ideal) x0)) (ix2 (j 0) k) * fqT x1 (ix2 (j 1) k) := fun k => by
    rw [val_main_v51_apply, v50_eq x1 h1, lidx52, ridx52]
    rfl
  rw [Finset.sum_congr rfl fun k _ => hs k]
  rfl

/-- The reference's gate is the specification's gate of its own pooled mean, when that mean, the weights and the
    first bias are real numbers. -/
theorem v90_eq (x0 : S64x1024x28x28.Idx → EReal) (x1 : S256x1024.Idx → EReal) (x2 : S256.Idx → EReal)
    (x3 : S1024x256.Idx → EReal) (x4 : S1024.Idx → EReal)
    (h14 : ∀ i, IsReal (val_main_v14 (F := Ideal) x0 i)) (h1 : ∀ i, IsReal (x1 i)) (h2 : ∀ i, IsReal (x2 i))
    (h3 : ∀ i, IsReal (x3 i)) :
    val_main_v90 (F := Ideal) x0 x1 x2 x3 x4 = gate (val_main_v14 (F := Ideal) x0) x1 x2 x3 x4 := by
  -- the hidden activations are real: they are the specification's first layer of real data
  have h56 : ∀ i, IsReal (val_main_v56 (F := Ideal) x0 x1 x2 i) := fun i => by
    rw [v56_eq x0 x1 x2 h14 h1]; exact fc1_real _ x1 x2 h14 h1 h2 i
  funext j
  rw [val_main_v90_apply, val_main_call13_v4_apply, val_main_call13_v3_apply, val_main_cst_34_apply,
    val_main_call13_v2_apply, val_main_call13_v1_apply, val_main_call13_v0_apply, val_main_cst_33_apply,
    val_main_v89_apply, val_main_v87_apply, val_main_v85_apply, val_main_v82_apply, val_main_v84_apply,
    val_main_v83_apply, val_main_v86_apply, val_main_cst_31_apply, val_main_v88_apply, val_main_cst_32_apply,
    v68_eq x0 x1 x2 h56, v56_eq x0 x1 x2 h14 h1, bidx84]
  have hs : ∀ k : Fin 256,
      fqT (fc1 (val_main_v14 (F := Ideal) x0) x1 x2) (lidx_main_v82 j k) * val_main_v81 (F := Ideal) x3 (ridx_main_v82 j k)
        = fqT (fc1 (val_main_v14 (F := Ideal) x0) x1 x2) (ix2 (j 0) k) * fqT x3 (ix2 (j 1) k) := fun k => by
    rw [val_main_v81_apply, v80_eq x3 h3, lidx82, ridx82]
    rfl
  rw [Finset.sum_congr rfl fun k _ => hs k]
  rfl

end Cert.ReferenceIdeal.RefValue

end
-- ==== Proof.Ref.lean ====
/-
  The reference's result is the specification, for real inputs: the gate broadcast over the 28 x 28 positions times `x`.
-/
import proofs.«422627_j82746839925439_3_alg».proof.Proof.Gen.ReferenceIdeal.Read
import proofs.«422627_j82746839925439_3_alg».proof.Proof.SpecLemmas
import proofs.«422627_j82746839925439_3_alg».proof.Proof.RefMean
import proofs.«422627_j82746839925439_3_alg».proof.Proof.RefGate
import Idealize.ShloMosaic.Lib.Pipeline.Value
import Idealize.ShloMosaic.Lib.ValueIdx
import Idealize.ShloMosaic.PureOps.Ideal.Laws

noncomputable section

set_option maxRecDepth 16384

namespace Cert.ReferenceIdeal.RefValue

open Cert.ReferenceIdeal Cert.ReferenceIdeal.Read Cert.SE Idealize.ShloMosaic Idealize.ShloMosaic.ValueIdx

/-- The last two stages broadcast the gate over the positions: read at `(b, c, h, w)` they give the gate at `(b, c)`. -/
theorem idx_v91_v92 (i : S64x1024x28x28.Idx) : idx_main_v91 (idx_main_v92 i) = ix2 (i 0) (i 1) :=
  funext fun a => match a with
    | ⟨0, _⟩ => rfl
    | ⟨1, _⟩ => rfl

/-- For real inputs the reference's result is `x` times the gate of its plane: the pooled mean is the
    specification's (and is real, so the gate's stretch applies), and the gate is broadcast over the 28 x 28 positions. -/
theorem ref_eq (x0 : S64x1024x28x28.Idx → EReal) (x1 : S256x1024.Idx → EReal) (x2 : S256.Idx → EReal)
    (x3 : S1024x256.Idx → EReal) (x4 : S1024.Idx → EReal)
    (h0 : ∀ i, IsReal (x0 i)) (h1 : ∀ i, IsReal (x1 i)) (h2 : ∀ i, IsReal (x2 i)) (h3 : ∀ i, IsReal (x3 i)) :
    val_main_v93 (F := Ideal) x0 x1 x2 x3 x4 = OUT x0 x1 x2 x3 x4 := by
  have h14 : ∀ j, IsReal (val_main_v14 (F := Ideal) x0 j) := by
    intro j
    rw [v14_eq x0 h0]
    exact mean4_real (qs_real (amax_ne_top x0 h0)) x0 j
  funext i
  rw [val_main_v93_apply, val_main_v92_apply, val_main_v91_apply, v90_eq x0 x1 x2 x3 x4 h14 h1 h2 h3,
    v14_eq x0 h0, idx_v91_v92]
  rfl

end Cert.ReferenceIdeal.RefValue

end
-- ==== Proof.FinPre.lean ====
/-
  The precondition read: when `finite_inputs` is all ones, every entry of every argument is a real number
  (each `|x| < +inf` rules out both infinities).
-/
import proofs.«422627_j82746839925439_3_alg».proof.Defs
import proofs.«422627_j82746839925439_3_alg».proof.Proof.Gen.Pre_finite_inputs
import proofs.«422627_j82746839925439_3_alg».proof.Proof.SpecLemmas
import Idealize.ShloMosaic.Lib.ReduceAll
import Idealize.ShloMosaic.Lib.ValueIdx

noncomputable section

namespace Cert.Proof

open Idealize.ShloMosaic Idealize.SL.Sem Cert.SE

/-- The f32 word `0x7F800000` (sign 0, exponent all ones, fraction 0) denotes `+∞`. -/
private theorem inf_word : Ideal.ofBits .f32 0x7F800000#32 = (⊤ : EReal) := by
  simp [Ideal.ofBits, Ideal.ieee]

/-- `|x| < +∞` rules out both infinities: `|⊤| = |⊥| = ⊤`, and `⊤ < ⊤` is false. -/
private theorem real_of_abs_lt_inf (x : EReal)
    (h : Ideal.cmp .olt (max x (-x)) (Ideal.ofBits .f32 0x7F800000#32) = 1#1) : IsReal x := by
  rw [inf_word] at h
  induction x using EReal.rec with
  | bot => simp [Ideal.cmp] at h
  | top => simp [Ideal.cmp] at h
  | coe r => exact ⟨EReal.coe_ne_top r, EReal.coe_ne_bot r⟩

/-- The rank-0 shape has exactly one index. -/
private instance subsingleton_scalar_idx : Subsingleton Cert.Pre_finite_inputs.S_.Idx :=
  ⟨fun a b => funext fun d => d.elim0⟩

/-- One conjunct of the precondition: the reduction by `and` over all axes of the bits `|x i| < +∞` is 1,
    so every bit is 1 and every entry of `x` is real. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant Cert.Pre_finite_inputs.S_ .f32 0x7F800000#32)))
          init hr hu ValueIdx.ix0 = 1#1)
    (i : s.Idx) : IsReal (x i) :=
  real_of_abs_lt_inf (x i) (Host.reduce_andi_all _ _ hr hu _ e i)

/-- Under the precondition every argument entry of the idealized kernel program's memory is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) := by
  -- the predicate's single word is the conjunction (by `and`) of five all-reductions, one per argument
  have h0 := congrFun (h c) ValueIdx.ix0
  dsimp only [Cert.Pre_finite_inputs.fn, Cert.Pre_finite_inputs.fn_part1] at h0
  -- a conjunction of one-bit words is 1 exactly when both are: peel the five conjuncts off, last first
  change IntOp.andi _ _ = 1#1 at h0
  obtain ⟨h0, e4⟩ := IntOp.andi_eq_one.1 h0
  change IntOp.andi _ _ = 1#1 at h0
  obtain ⟨h0, e3⟩ := IntOp.andi_eq_one.1 h0
  change IntOp.andi _ _ = 1#1 at h0
  obtain ⟨h0, e2⟩ := IntOp.andi_eq_one.1 h0
  change IntOp.andi _ _ = 1#1 at h0
  obtain ⟨e0, e1⟩ := IntOp.andi_eq_one.1 h0
  exact ⟨fun i => all_real (s := Cert.Pre_finite_inputs.S64x1024x28x28) _ _ _ _ _ e0 i,
    fun i => all_real (s := Cert.Pre_finite_inputs.S256x1024) _ _ _ _ _ e1 i,
    fun i => all_real (s := Cert.Pre_finite_inputs.S256) _ _ _ _ _ e2 i,
    fun i => all_real (s := Cert.Pre_finite_inputs.S1024x256) _ _ _ _ _ e3 i,
    fun i => all_real (s := Cert.Pre_finite_inputs.S1024) _ _ _ _ _ e4 i⟩

end Cert.Proof

end
-- ==== Proof.lean ====
/-
  The certificate of a squeeze-and-excite gate with fake-quantized activations and weights, against its jnp reference,
  over the extended reals.

  Both programs compute `x * g` where `g` is, per (batch, channel) plane, `clip (o / 6 + 1/2) 0 1` of two quantized
  linear layers applied to the plane's mean of the quantized `x` (Proof/Spec.lean). They differ in two ways.
  The reference writes every fake quantization as `t + (q - t)`, which is `q` exactly when `t` is a real number: this is
  where the precondition is used — the inputs are real, hence so is every intermediate the reference quantizes
  (Proof/SpecLemmas.lean, Proof/RefMean.lean, Proof/RefGate.lean, Proof/Ref.lean). The kernel program computes `q`
  directly, takes the largest magnitude of `x` as the maximum of fourteen block maxima, and works on reshaped views in
  four launches (Proof/R0.lean … Proof/R3.lean for what each launch leaves, Proof/KChain.lean for the program's result
  as their composition, Proof/Bridge.lean for that composition being the specification, with no hypothesis on the
  inputs). No float literal is ever evaluated: both sides print the same words. The ideal pass rewrote nothing, so
  `preserves` is `True`.
-/
import proofs.«422627_j82746839925439_3_alg».proof.Defs
import proofs.«422627_j82746839925439_3_alg».proof.Proof.Gen.Kernel
import proofs.«422627_j82746839925439_3_alg».proof.Proof.Gen.Kernel.Frame
import proofs.«422627_j82746839925439_3_alg».proof.Proof.Gen.KernelIdeal
import proofs.«422627_j82746839925439_3_alg».proof.Proof.Gen.KernelIdeal.Frame
import proofs.«422627_j82746839925439_3_alg».proof.Proof.Gen.ReferenceIdeal
import proofs.«422627_j82746839925439_3_alg».proof.Proof.Gen.Pre_finite_inputs
import proofs.«422627_j82746839925439_3_alg».proof.Proof.Gen.ReferenceIdeal.Run
import proofs.«422627_j82746839925439_3_alg».proof.Proof.Gen.ReferenceIdeal.Read
import proofs.«422627_j82746839925439_3_alg».proof.Proof.KChain
import proofs.«422627_j82746839925439_3_alg».proof.Proof.Bridge
import proofs.«422627_j82746839925439_3_alg».proof.Proof.Ref
import proofs.«422627_j82746839925439_3_alg».proof.Proof.FinPre
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_p : Cert.frame_Kernel := fun m ρ _ => Cert.Kernel.Gen.frame m ρ

/-- The idealized kernel program runs and leaves its arguments unchanged: the generated frame. -/
theorem frame_pi : Cert.frame_KernelIdeal := fun m ρ _ => Cert.KernelIdeal.Gen.frame m ρ

/-- The idealized reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both idealized programs end with the
    specification's `OUT` of the arguments: the kernel program by its four launches' values composed, the reference
    because its arguments, being the kernel program's, are real numbers. -/
theorem algebraic : Cert.algebraic_KernelIdeal_ReferenceIdeal := by
  intro m ρ m' ρ' hpre hagree
  refine ⟨fun c => Cert.SE.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Val.run m ρ)
    exact Cert.KernelIdeal.Val.kout_eq_OUT _ _ _ _ _
  · refine (θ_run Cert.ReferenceIdeal.defs _ _).mono (fun _ h c => ⟨(h c).1.trans ?_, (h c).2⟩)
      (Cert.ReferenceIdeal.Value.run (F := Ideal) m' ρ')
    obtain ⟨r0, r1, r2, r3, _⟩ := real_of_pre m hpre c
    rw [Cert.ReferenceIdeal.Read.val_main_v93_eq, (hagree c).1, (hagree c).2.1, (hagree c).2.2.1, (hagree c).2.2.2.1,
      (hagree c).2.2.2.2]
    exact Cert.ReferenceIdeal.RefValue.ref_eq _ _ _ _ _ r0 r1 r2 r3

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
